-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v11) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S_ : Shape := ⟨0, ![]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  bcast_S_S8192x8192 : S_.BroadcastsInDim S8192x8192 (![] : Fin 0 → Fin S8192x8192.rank)
  reducesTo_S8192x8192_S_d0_1 : S8192x8192.ReducesTo [0, 1] S_
  bcast_S_S128x32 : S_.BroadcastsInDim S128x32 (![] : Fin 0 → Fin S128x32.rank)
  reducesTo_S128x32_S_d0_1 : S128x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_

variable [Facts]

def fn_part1 {F : FTy → Type} [FloatOps F] (main_arg4 : FVec F S32x32 .f32) (main_arg5 : FVec F S32 .f32) (main_v13 : IVec S_ 1) (main_v16 : IVec S32 1) : IVec S_ 1 :=
  let main_c_5 : IVec S_ 1 := constantI S_ 1 1#1
  let main_v17 : IVec S_ 1 := (fun x v => Host.reduce IntOp.andi x v reducesTo_S32_S_d0 h_S_) main_v16 main_c_5
  let main_v18 : IVec S_ 1 := andi main_v13 main_v17
  let main_v19 : FVec F S32x32 .f32 := Host.absf main_arg4
  let main_cst_6 : FVec F S_ .f32 := constant S_ .f32 0x7F800000#32
  let main_v20 : FVec F S32x32 .f32 := broadcastInDim S32x32 ![] bcast_S_S32x32 main_cst_6
  let main_v21 : IVec S32x32 1 := cmpf .olt main_v19 main_v20
  let main_c_7 : IVec S_ 1 := constantI S_ 1 1#1
  let main_v22 : IVec S_ 1 := (fun x v => Host.reduce IntOp.andi x v reducesTo_S32x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  main_v28

def fn {F : FTy → Type} [FloatOps F] (main_arg0 : FVec F S8192x128 .f32) (main_arg1 : FVec F S8192x8192 .f32) (main_arg2 : FVec F S128x32 .f32) (main_arg3 : FVec F S32 .f32) (main_arg4 : FVec F S32x32 .f32) (main_arg5 : FVec F S32 .f32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  let main_v9 : FVec F S128x32 .f32 := Host.absf main_arg2
  let main_cst_2 : FVec F S_ .f32 := constant S_ .f32 0x7F800000#32
  let main_v10 : FVec F S128x32 .f32 := broadcastInDim S128x32 ![] bcast_S_S128x32 main_cst_2
  let main_v11 : IVec S128x32 1 := cmpf .olt main_v9 main_v10
  let main_c_3 : IVec S_ 1 := constantI S_ 1 1#1
  let main_v12 : IVec S_ 1 := (fun x v => Host.reduce IntOp.andi x v reducesTo_S128x32_S_d0_1 h_S_) main_v11 main_c_3
  let main_v13 : IVec S_ 1 := andi main_v8 main_v12
  let main_v14 : FVec F S32 .f32 := Host.absf main_arg3
  let main_cst_4 : FVec F S_ .f32 := constant S_ .f32 0x7F800000#32
  let main_v15 : FVec F S32 .f32 := broadcastInDim S32 ![] bcast_S_S32 main_cst_4
  let main_v16 : IVec S32 1 := cmpf .olt main_v14 main_v15
  fn_part1 (F := F) main_arg4 main_arg5 main_v13 main_v16
-- ==== Kernel.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S1x32 : Shape := ⟨2, ![1, 32]⟩
abbrev S8192x32 : Shape := ⟨2, ![8192, 32]⟩
abbrev S512x8192 : Shape := ⟨2, ![512, 8192]⟩
abbrev S512x32 : Shape := ⟨2, ![512, 32]⟩

abbrev nBuf : Space → Nat
  | .hbm => 9
  | .vmem => 11
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S1x32, .f32⟩
  | .hbm, ⟨7, _⟩ => ⟨S1x32, .f32⟩
  | .hbm, ⟨8, _⟩ => ⟨S8192x32, .f32⟩
  | .local _ .vmem, ⟨0, _⟩ => ⟨S8192x128, .f32⟩
  | .local _ .vmem, ⟨1, _⟩ => ⟨S128x32, .f32⟩
  | .local _ .vmem, ⟨2, _⟩ => ⟨S1x32, .f32⟩
  | .local _ .vmem, ⟨3, _⟩ => ⟨S32x32, .f32⟩
  | .local _ .vmem, ⟨4, _⟩ => ⟨S1x32, .f32⟩
  | .local _ .vmem, ⟨5, _⟩ => ⟨S512x8192, .f32⟩
  | .local _ .vmem, ⟨6, _⟩ => ⟨S512x8192, .f32⟩
  | .local _ .vmem, ⟨7, _⟩ => ⟨S512x32, .f32⟩
  | .local _ .vmem, ⟨8, _⟩ => ⟨S512x32, .f32⟩
  | .local _ .vmem, ⟨9, _⟩ => ⟨S8192x32, .bf16⟩
  | .local _ .vmem, ⟨10, _⟩ => ⟨S8192x32, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨2, ![2, 16], ![false, false]⟩

def k0_cond3 (i : grid0.Coords) : BitVec 1 :=
  let arg0 : BitVec 32 := BitVec.ofNat 32 (i 0).val
  let c0_i32_14 : BitVec 32 := 0#32
  let v27 : BitVec 1 := Scalar.cmpi .eq arg0 c0_i32_14
  let v28 : BitVec 32 := Scalar.extui v27
  let c0_i32_15 : BitVec 32 := 0#32
  let v29 : BitVec 1 := Scalar.cmpi .ne v28 c0_i32_15
  v29

def k0_off1 (i : grid0.Coords) : Fin 2 → Nat :=
  let arg1 : BitVec 32 := BitVec.ofNat 32 (i 1).val
  let c512_i32 : BitVec 32 := 512#32
  let v33 : BitVec 32 := Scalar.muli arg1 c512_i32
  let v34 : Index := Scalar.indexCast v33
  let c0_18 : Index := 0#32
  ![v34.toNat, 0]
def k0_cond4 (i : grid0.Coords) : BitVec 1 :=
  let arg0 : BitVec 32 := BitVec.ofNat 32 (i 0).val
  let c1_i32_16 : BitVec 32 := 1#32
  let v30 : BitVec 1 := Scalar.cmpi .eq arg0 c1_i32_16
  let v31 : BitVec 32 := Scalar.extui v30
  let c0_i32_17 : BitVec 32 := 0#32
  let v32 : BitVec 1 := Scalar.cmpi .ne v31 c0_i32_17
  v32

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_6 (i : grid0.Coords) : Fin 2 → Nat :=
  let arg0 : BitVec 32 := BitVec.ofNat 32 (i 0).val
  let arg1 : BitVec 32 := BitVec.ofNat 32 (i 1).val
  let v0 : BitVec 32 := Scalar.muli arg0 arg1
  let c0_i32 : BitVec 32 := 0#32
  let c0_i32_0 : BitVec 32 := 0#32
  ![v0.toNat, c0_i32.toNat]

abbrev stage0_0 : Fin 1 → Memref sig .tc .vmem S8192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S128x32 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S32x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S512x8192 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S512x32 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

class Facts₀ : Prop where
  shapeCasts_S32_S1x32 : S32.ShapeCasts S1x32
  inb_S8192x128_S8192x128_0_0 : ∀ a, (![0, 0] : Fin 2 → Nat) a + S8192x128.size a ≤ S8192x128.size a
  h_S8192x128 : 0 < S8192x128.numel
  bitsLt_bf16_f32 : FTy.bits .bf16 < FTy.bits .f32
  inb_S128x32_S128x32_0_0 : ∀ a, (![0, 0] : Fin 2 → Nat) a + S128x32.size a ≤ S128x32.size a
  h_S128x32 : 0 < S128x32.numel
  inb_S8192x32_S8192x32_0_0 : ∀ a, (![0, 0] : Fin 2 → Nat) a + S8192x32.size a ≤ S8192x32.size a
  h_S8192x32 : 0 < S8192x32.numel
  shapeCasts_S8192x32_S8192x32 : S8192x32.ShapeCasts S8192x32
  packedbf16_S8192x32_S8192x32_0_0 : (Rect.unit (s := S8192x32) ![0, 0] S8192x32.size inb_S8192x32_S8192x32_0_0).PackedRows (EltTy.packing .bf16)
  inb_S32x32_S32x32_0_0 : ∀ a, (![0, 0] : Fin 2 → Nat) a + S32x32.size a ≤ S32x32.size a
  h_S32x32 : 0 < S32x32.numel
  inb_S512x8192_S512x8192_0_0 : ∀ a, (![0, 0] : Fin 2 → Nat) a + S512x8192.size a ≤ S512x8192.size a
  h_S512x8192 : 0 < S512x8192.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S512x32 : S1x32.Broadcasts S512x32
  h_S512x32 : 0 < S512x32.numel
  shapeCasts_S512x32_S512x32 : S512x32.ShapeCasts S512x32
  inb_S512x32_S512x32_0_0 : ∀ a, (![0, 0] : Fin 2 → Nat) a + S512x32.size a ≤ S512x32.size a
  dot_S8192x128_S128x32_S8192x32_1_0_0_1_n_n_wf : DotDims.WF S8192x128 S128x32 S8192x32 [1] [0] [0] [1] [] []
  dot_S8192x32_S32x32_S8192x32_1_0_0_1_n_n_wf : DotDims.WF S8192x32 S32x32 S8192x32 [1] [0] [0] [1] [] []
  dot_S512x8192_S8192x32_S512x32_1_0_0_1_n_n_wf : DotDims.WF S512x8192 S8192x32 S512x32 [1] [0] [0] [1] [] []
  hrank0 : 0 < grid0.rank
  k0_off1_inb : ∀ i : grid0.Coords, ∀ (k0_h3 : k0_cond3 i = 1#1), ∀ a, (k0_off1 i) a + S512x32.size a ≤ S8192x32.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .f32 = 32 ∨ (Rect.block (s := S8192x128) S8192x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x32.size a ≤ S128x32.size a
  hwx0_1 : ∀ i : grid0.Coords, EltTy.bits .f32 = 32 ∨ (Rect.block (s := S128x32) S128x32.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x32.size a ≤ S1x32.size a
  hwx0_2 : ∀ i : grid0.Coords, EltTy.bits .f32 = 32 ∨ (Rect.block (s := S1x32) S1x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x32.size a ≤ S32x32.size a
  hwx0_3 : ∀ i : grid0.Coords, EltTy.bits .f32 = 32 ∨ (Rect.block (s := S32x32) S32x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x32.size a ≤ S1x32.size a
  hwx0_4 : ∀ i : grid0.Coords, EltTy.bits .f32 = 32 ∨ (Rect.block (s := S1x32) S1x32.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x8192.size a ≤ S8192x8192.size a
  hwx0_5 : ∀ i : grid0.Coords, EltTy.bits .f32 = 32 ∨ (Rect.block (s := S8192x8192) S512x8192.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512x32.size a ≤ S8192x32.size a
  hwx0_6 : ∀ i : grid0.Coords, EltTy.bits .f32 = 32 ∨ (Rect.block (s := S8192x32) S512x32.size (cc0_transform_6 i) (hinb0_6 i)).WholeWords (EltTy.packing .f32)

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf
def dot_S512x8192_S8192x32_S512x32_1_0_0_1_n_n : DotDims S512x8192 S8192x32 S512x32 where
  lhsContracting := [1]
  rhsContracting := [0]
  lhsNonContracting := [0]
  rhsNonContracting := [1]
  lhsBatch := []
  rhsBatch := []
  wf := dot_S512x8192_S8192x32_S512x32_1_0_0_1_n_n_wf

abbrev win0_0 : Pipeline.Window sig grid0 :=
  Pipeline.Window.ofSpec (Memref.whole main_arg0) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x32.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S32x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v1) S1x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S512x8192.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v2) S512x32.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond4 i == 1#1) | ⟨_ + 7, h⟩ => absurd h (Nat.not_lt.2 (Nat.le_add_left _ _))

class Facts : Prop extends Facts₀ where

variable [Facts]
-- ==== ReferenceIdeal.lean ====
abbrev S8192x128 : Shape := ⟨2, ![8192, 128]⟩
abbrev S8192x8192 : Shape := ⟨2, ![8192, 8192]⟩
abbrev S128x32 : Shape := ⟨2, ![128, 32]⟩
abbrev S32 : Shape := ⟨1, ![32]⟩
abbrev S32x32 : Shape := ⟨2, ![32, 32]⟩
abbrev S8192x32 : Shape := ⟨2, ![8192, 32]⟩
abbrev S1x32 : Shape := ⟨2, ![1, 32]⟩
abbrev S_ : Shape := ⟨0, ![]⟩

abbrev nBuf : Space → Nat
  | .hbm => 32
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x8192, .f32⟩
  | .hbm, ⟨2, _⟩ => ⟨S128x32, .f32⟩
  | .hbm, ⟨3, _⟩ => ⟨S32, .f32⟩
  | .hbm, ⟨4, _⟩ => ⟨S32x32, .f32⟩
  | .hbm, ⟨5, _⟩ => ⟨S32, .f32⟩
  | .hbm, ⟨6, _⟩ => ⟨S8192x32, .f32⟩
  | .hbm, ⟨7, _⟩ => ⟨S8192x32, .f32⟩
  | .hbm, ⟨8, _⟩ => ⟨S1x32, .f32⟩
  | .hbm, ⟨9, _⟩ => ⟨S8192x32, .f32⟩
  | .hbm, ⟨10, _⟩ => ⟨S8192x32, .f32⟩
  | .hbm, ⟨11, _⟩ => ⟨S_, .f32⟩
  | .hbm, ⟨12, _⟩ => ⟨S_, .f32⟩
  | .hbm, ⟨13, _⟩ => ⟨S8192x32, .f32⟩
  | .hbm, ⟨14, _⟩ => ⟨S8192x32, .i1⟩
  | .hbm, ⟨15, _⟩ => ⟨S_, .f32⟩
  | .hbm, ⟨16, _⟩ => ⟨S8192x32, .f32⟩
  | .hbm, ⟨17, _⟩ => ⟨S8192x32, .f32⟩
  | .hbm, ⟨18, _⟩ => ⟨S8192x32, .f32⟩
  | .hbm, ⟨19, _⟩ => ⟨S8192x32, .f32⟩
  | .hbm, ⟨20, _⟩ => ⟨S8192x32, .f32⟩
  | .hbm, ⟨21, _⟩ => ⟨S1x32, .f32⟩
  | .hbm, ⟨22, _⟩ => ⟨S8192x32, .f32⟩
  | .hbm, ⟨23, _⟩ => ⟨S8192x32, .f32⟩
  | .hbm, ⟨24, _⟩ => ⟨S_, .f32⟩
  | .hbm, ⟨25, _⟩ => ⟨S_, .f32⟩
  | .hbm, ⟨26, _⟩ => ⟨S8192x32, .f32⟩
  | .hbm, ⟨27, _⟩ => ⟨S8192x32, .i1⟩
  | .hbm, ⟨28, _⟩ => ⟨S_, .f32⟩
  | .hbm, ⟨29, _⟩ => ⟨S8192x32, .f32⟩
  | .hbm, ⟨30, _⟩ => ⟨S8192x32, .f32⟩
  | .hbm, ⟨31, _⟩ => ⟨S8192x32, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_call0_cst : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_call1_cst : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v11 : Ref sig .tc := ⟨.hbm, 31, rfl⟩

abbrev nD : Nat := 1
abbrev τ : Topo := Topo.v7x

variable {F : FTy → Type} [FloatOps F]

class Facts₀ : Prop where
  bcast_S32_S1x32_1 : S32.BroadcastsInDim S1x32 (![1] : Fin 1 → Fin S1x32.rank)
  bcast_S1x32_S8192x32_0_1 : S1x32.BroadcastsInDim S8192x32 (![0, 1] : Fin 2 → Fin S8192x32.rank)
  bcast_S_S8192x32 : S_.BroadcastsInDim S8192x32 (![] : Fin 0 → Fin S8192x32.rank)
  dot_S8192x128_S128x32_S8192x32_1_0_0_1_n_n_wf : DotDims.WF S8192x128 S128x32 S8192x32 [1] [0] [0] [1] [] []
  dot_S8192x8192_S8192x32_S8192x32_1_0_0_1_n_n_wf : DotDims.WF S8192x8192 S8192x32 S8192x32 [1] [0] [0] [1] [] []
  dot_S8192x32_S32x32_S8192x32_1_0_0_1_n_n_wf : DotDims.WF S8192x32 S32x32 S8192x32 [1] [0] [0] [1] [] []

variable [Facts₀]

def dot_S8192x128_S128x32_S8192x32_1_0_0_1_n_n : DotDims S8192x128 S128x32 S8192x32 where
  lhsContracting := [1]
  rhsContracting := [0]
  lhsNonContracting := [0]
  rhsNonContracting := [1]
  lhsBatch := []
  rhsBatch := []
  wf := dot_S8192x128_S128x32_S8192x32_1_0_0_1_n_n_wf
def dot_S8192x8192_S8192x32_S8192x32_1_0_0_1_n_n : DotDims S8192x8192 S8192x32 S8192x32 where
  lhsContracting := [1]
  rhsContracting := [0]
  lhsNonContracting := [0]
  rhsNonContracting := [1]
  lhsBatch := []
  rhsBatch := []
  wf := dot_S8192x8192_S8192x32_S8192x32_1_0_0_1_n_n_wf
def dot_S8192x32_S32x32_S8192x32_1_0_0_1_n_n : DotDims S8192x32 S32x32 S8192x32 where
  lhsContracting := [1]
  rhsContracting := [0]
  lhsNonContracting := [0]
  rhsNonContracting := [1]
  lhsBatch := []
  rhsBatch := []
  wf := dot_S8192x32_S32x32_S8192x32_1_0_0_1_n_n_wf

class Facts : Prop extends Facts₀ where

variable [Facts]
-- ==== Proof.Bits.Branches.lean ====
/-
  The four kinds of grid point of the two-layer graph convolution, as conditions on the coordinates (l, i) and in closed
  form over the 32 points t = 16·l + i: the first point (t = 0) computes the feature transform x·W1; the points of
  layer 0 (t < 16) each store one 512-row block of the hidden layer; the first point of layer 1 (t = 16) computes
  hidden·W2; the points of layer 1 (16 ≤ t) each store one 512-row block of the result.
-/
import proofs.«131990_g28389733826938_cont_9to1_253_4_alg».proof.Proof.Gen.Kernel.Frame
import proofs.«131990_g28389733826938_cont_9to1_253_4_alg».proof.Proof.Gen.Kernel.Skeleton
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- (l, i) = (0, 0): the point that computes x·W1. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- (l, i) = (1, 0): the point that computes hidden·W2. -/
abbrev condSwitch (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1

theorem hcondFirst : ∀ t : Fin cfg0.N, condFirst (grid0.coords t) ↔ t.val = 0 :=
  (by decide +kernel : ∀ t : Fin grid0.N, condFirst (grid0.coords t) ↔ t.val = 0)
theorem hcondSwitch : ∀ t : Fin cfg0.N, condSwitch (grid0.coords t) ↔ t.val = 16 :=
  (by decide +kernel : ∀ t : Fin grid0.N, condSwitch (grid0.coords t) ↔ t.val = 16)
/-- l = 0 exactly at the first sixteen points. -/
theorem hcondHid : ∀ t : Fin cfg0.N, k0_cond3 (grid0.coords t) = 1#1 ↔ t.val < 16 :=
  (by decide +kernel : ∀ t : Fin grid0.N, k0_cond3 (grid0.coords t) = 1#1 ↔ t.val < 16)
/-- l = 1 exactly at the last sixteen. -/
theorem hcondOut : ∀ t : Fin cfg0.N, k0_cond4 (grid0.coords t) = 1#1 ↔ 16 ≤ t.val :=
  (by decide +kernel : ∀ t : Fin grid0.N, k0_cond4 (grid0.coords t) = 1#1 ↔ 16 ≤ t.val)
/-- The hidden layer's block stored at point t starts at row 512·(t mod 16). -/
theorem off1_eq : ∀ t : Fin cfg0.N, k0_off1 (grid0.coords t) = ![512 * (t.val % 16), 0] :=
  (by decide +kernel : ∀ t : Fin grid0.N, k0_off1 (grid0.coords t) = ![512 * (t.val % 16), 0])

/-- Through layer 0 the result window parks on block 0 and the body stores nothing into it. -/
theorem idleOut : ∀ t : Fin cfg0.N, t.val < 16 → cfg0.idle 6 (grid0.coords t) = true :=
  (by decide +kernel : ∀ t : Fin grid0.N, t.val < 16 → cfg0.idle 6 (grid0.coords t) = true)
theorem liveOut : ∀ t : Fin cfg0.N, 16 ≤ t.val → cfg0.idle 6 (grid0.coords t) = false :=
  (by decide +kernel : ∀ t : Fin grid0.N, 16 ≤ t.val → cfg0.idle 6 (grid0.coords t) = false)
/-- The block index l·i stays 0 up to the first point of layer 1, then moves at every point: nothing is written back
    during layer 0, every point of layer 1 writes its block back. -/
theorem noFlushOut : ∀ t : Fin cfg0.N, t.val < 16 → (cfg0.win 6).flush t = false :=
  (by decide +kernel : ∀ t : Fin grid0.N, t.val < 16 → win0_6.flush t = false)
theorem flushOut : ∀ t : Fin cfg0.N, 16 ≤ t.val → (cfg0.win 6).flush t = true :=
  (by decide +kernel : ∀ t : Fin grid0.N, 16 ≤ t.val → win0_6.flush t = true)
/-- The result block written back at point t (16 ≤ t) is block t − 16. -/
theorem indexOut : ∀ t : Fin cfg0.N, 16 ≤ t.val → ∀ a : Fin 2, win0_6.index t a = (![t.val - 16, 0] : Fin 2 → ℕ) a :=
  (by decide +kernel : ∀ t : Fin grid0.N, 16 ≤ t.val → ∀ a : Fin 2, win0_6.index t a = (![t.val - 16, 0] : Fin 2 → ℕ) a)
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
theorem liveIn4 : ∀ t : Fin cfg0.N, cfg0.idle 4 (grid0.coords t) = false := by decide +kernel
theorem liveIn5 : ∀ t : Fin cfg0.N, cfg0.idle 5 (grid0.coords t) = false := by decide +kernel

end Cert.Kernel.Gen
end
-- ==== Proof.Bits.CarriedState.lean ====
/-
  What the graph convolution carries between grid points, and the pipeline's proof data.

  The kernel keeps two scratch arrays across its 32 points. The bf16 array holds the layer's support matrix: x·W1 from
  the first point on, hidden·W2 from the first point of layer 1 on. The f32 array collects the hidden layer
  lrelu(adj·(x·W1) + b1) one 512-row block per point of layer 0; it is complete after sixteen points and read whole
  once, at the first point of layer 1. Before its blocks are stored the array holds whatever the scratch held at
  entry, so the invariant is a relation on the contents (`Carried`), not a name for them: after n points the support
  matrix is the layer's, and rows below 512·min(n,16) of the hidden array are the hidden layer's rows.
  Each point of layer 1 leaves lrelu(adj_block·(hidden·W2) + b2) in the result window's buffer (`outBlk`).
-/
import proofs.«131990_g28389733826938_cont_9to1_253_4_alg».proof.Proof.Bits.Branches
import Idealize.ShloMosaic.Lib.ValueIdx
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Point number n of the grid's 32. -/
def pt (n : ℕ) (h : n < 32) : Fin cfg0.N := ⟨n, by rw [show cfg0.N = 32 from N_0]; exact h⟩

@[simp] theorem pt_val (n : ℕ) (h : n < 32) : (pt n h).val = n := rfl

theorem pt_self (t : Fin cfg0.N) (h : t.val < 32) : pt t.val h = t := Fin.ext rfl

/-- The two scratch arrays, whole. -/
abbrev scM0 : Memref sig .tc .vmem S8192x32 .bf16 := Memref.whole cc0_scratch0
abbrev scM1 : Memref sig .tc .vmem S8192x32 .f32 := Memref.whole cc0_scratch1

/-- Each window's current staging buffer at point t. -/
abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x32 .f32 := win0_6.stage (cfg0.slots t 6)
abbrev hs6 (t : Fin cfg0.N) : (ms6 t).IsWhole := hstage0_6 ((cfg0.slots t 6).cast nbuf0_6)

/-- x·W1 as the first point computes it from the two whole-array windows. -/
def featT (c : Dev nD) : Vec F S8192x32 .bf16 :=
  k0_pay1 (iblk m c 0 (pt 0 (by omega))) (iblk m c 1 (pt 0 (by omega)))

/-- Block j of the hidden layer, rows 512·j … 512·j + 511, as point (0, j) computes it:
    lrelu(adj_block_j · (x·W1) + b1). -/
def hidBlk (c : Dev nD) (j : ℕ) (hj : j < 16) : Vec F S512x32 .f32 :=
  k0_pay4 (grid0.coords (pt j (by omega))) (iblk m c 5 (pt j (by omega))) (featT m c) (iblk m c 2 (pt j (by omega))) (iblk m c 4 (pt j (by omega)))

/-- The hidden layer whole: row r is row r mod 512 of block r / 512. -/
def hidAll (c : Dev nD) : Vec F S8192x32 .f32 := fun idx =>
  hidBlk m c ((idx 0).val / 512) (by have := idx2_lt0 idx; omega)
    (ix2 (⟨(idx 0).val % 512, Nat.mod_lt _ (by norm_num)⟩ : Fin 512) (⟨(idx 1).val, idx2_lt1 idx⟩ : Fin 32))

/-- hidden·W2 as the first point of layer 1 computes it. -/
def featT2 (c : Dev nD) : Vec F S8192x32 .bf16 := k0_pay2 (hidAll m c) (iblk m c 3 (pt 16 (by omega)))

/-- What a point of layer 1 leaves in the result window's buffer: lrelu(adj_block · (hidden·W2) + b2). -/
def outBlk (c : Dev nD) (t : Fin cfg0.N) : Vec F S512x32 .f32 :=
  k0_pay3 (grid0.coords t) (iblk m c 5 t) (featT2 m c) (iblk m c 2 t) (iblk m c 4 t)

/-- The relation the two scratch arrays' contents satisfy after n points. -/
def Carried (c : Dev nD) (n : ℕ) (s0 : Vec F S8192x32 .bf16) (s1 : Vec F S8192x32 .f32) : Prop :=
  (1 ≤ n → n ≤ 16 → s0 = featT m c) ∧ (17 ≤ n → s0 = featT2 m c) ∧
  ∀ (j : ℕ) (hj : j < 16), j < n → ∀ (y : S512x32.Idx) (idx : S8192x32.Idx),
    (idx 0).val = 512 * j + (y 0).val → (idx 1).val = (y 1).val → s1 idx = hidBlk m c j hj y

theorem Carried_zero (c : Dev nD) (s0 : Vec F S8192x32 .bf16) (s1 : Vec F S8192x32 .f32) : Carried m c 0 s0 s1 :=
  ⟨fun h => absurd h (by omega), fun h => absurd h (by omega), fun j _ h => absurd h (by omega)⟩

/-- Once all sixteen blocks are stored the hidden array is the hidden layer. -/
theorem Carried.hid_eq {c : Dev nD} {n : ℕ} {s0 : Vec F S8192x32 .bf16} {s1 : Vec F S8192x32 .f32}
    (h : Carried m c n s0 s1) (hn : 16 ≤ n) : s1 = hidAll m c := by
  funext idx
  have h0 := idx2_lt0 idx
  exact h.2.2 ((idx 0).val / 512) (by omega) (by omega) _ idx
    (by show (idx 0).val = 512 * ((idx 0).val / 512) + (idx 0).val % 512; omega) rfl

/-- The region invariant before point n: the scratch arrays at contents so related, the generator register at some state. -/
def PhiS (c : Dev nD) (n : ℕ) : sProp 𝕄 :=
  iprop(∃ s0 s1, ⌜Carried m c n s0 s1⌝ ∗ owns (c : Thread nD τ) scM0 fullShare s0 ∗ owns (c : Thread nD τ) scM1 fullShare s1 ∗ (∃ r, prngReg c r))

/-- The proof data of the one pipeline on core c: the arrays as the region finds them; every input window's buffer at its
    block after the body; the result window's at `outBlk` (read only where the window is live: the points of layer 1). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem Phi_eq (c : Dev nD) (t : Fin (cfg0.N + 1)) : (dats m 0 c).Φ t = PhiS m c t.val := by dsimp only [dats]

/-- The class invariant with the two scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What the launch hands the region is the invariant before the first point: no relation is asked of the contents yet. -/
theorem hin (c : Dev nD) : Pipeline.ΦA spec0 c ⊢ (dats m 0 c).Φ 0 := by
  rw [Phi_eq, PhiA_eq]; unfold PhiS
  iintro ⟨⟨⟨%d0, H0⟩, ⟨%d1, H1⟩⟩, Hg⟩
  iexists d0; iexists d1
  isplitr; · ipureintro; exact Carried_zero m c d0 d1
  isplitl [H0]; · iexact H0
  isplitl [H1]; · iexact H1
  iexact Hg

/-- After the last point the relation is forgotten. -/
theorem hout (c : Dev nD) : (dats m 0 c).Φ (Fin.last cfg0.N) ⊢ Pipeline.ΦA spec0 c := by
  rw [Phi_eq, PhiA_eq]; unfold PhiS
  iintro ⟨%s0, %s1, -, H0, H1, Hg⟩
  isplitr [Hg]
  · isplitl [H0]
    · iexists _; iexact H0
    · iexists _; iexact H1
  iexact Hg

end Cert.Kernel.Gen
end
-- ==== Proof.Bits.CarriedStep.lean ====
/-
  The relation on the two scratch arrays is kept by every kind of point: the first point installs x·W1 and block 0 of
  the hidden layer; a later point of layer 0 adds its block and touches no row below it; the first point of layer 1 finds
  the hidden array complete, installs hidden·W2 and leaves the block the proof data names; a later point of layer 1
  changes nothing and leaves its block.
-/
import proofs.«131990_g28389733826938_cont_9to1_253_4_alg».proof.Proof.Bits.CarriedState
import Idealize.ShloMosaic.Lib.WritesUnit
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Reading through the whole array what was put back unread gives the contents again: with no store the hidden array
    reads as it did. -/
theorem hidden_array_read_no_store (s1 : Vec F S8192x32 .f32) (idx : S8192x32.Idx) :
    scM1.view.read (Elt F) (scM1.view.writes (Elt F) ((Memref.isWhole_whole cc0_scratch1).unread s1) []) idx = s1 idx := by
  rw [View.writes_nil]
  exact congrFun ((Memref.isWhole_whole cc0_scratch1).read_unread s1) idx

/-- Row 512·t + y₀, column y₁ of the hidden array, after point t < 16 has stored its block w, is w at (y₀, y₁). -/
theorem hidden_array_read_stored_block (t : Fin cfg0.N) (hlt : t.val < 16) (h3 : k0_cond3 (grid0.coords t) = 1#1)
    (s1 : Vec F S8192x32 .f32) (w : Vec F S512x32 .f32) (y : S512x32.Idx) (idx : S8192x32.Idx)
    (h0 : (idx 0).val = 512 * t.val + (y 0).val) (h1 : (idx 1).val = (y 1).val) :
    scM1.view.read (Elt F) (scM1.view.writes (Elt F) ((Memref.isWhole_whole cc0_scratch1).unread s1)
        [⟨Rect.unit (k0_off1 (grid0.coords t)) S512x32.size (k0_off1_inb (grid0.coords t) h3), w⟩]) idx = w y := by
  have hm : t.val % 16 = t.val := Nat.mod_eq_of_lt hlt
  exact View.read_writes_cons_rows_of_mem scM1.view _ (k0_off1_inb (grid0.coords t) h3) w [] idx y
    (o := 512 * (t.val % 16)) (off1_eq t) (by rw [hm]; exact h0) h1

/-- A row below 512·t of the hidden array is not touched by the store of point t < 16. -/
theorem hidden_array_read_below_block (t : Fin cfg0.N) (hlt : t.val < 16) (h3 : k0_cond3 (grid0.coords t) = 1#1)
    (s1 : Vec F S8192x32 .f32) (w : Vec F S512x32 .f32) (idx : S8192x32.Idx)
    (h0 : (idx 0).val < 512 * t.val) :
    scM1.view.read (Elt F) (scM1.view.writes (Elt F) ((Memref.isWhole_whole cc0_scratch1).unread s1)
        [⟨Rect.unit (k0_off1 (grid0.coords t)) S512x32.size (k0_off1_inb (grid0.coords t) h3), w⟩]) idx = s1 idx := by
  have hm : t.val % 16 = t.val := Nat.mod_eq_of_lt hlt
  refine (View.read_writes_cons_rows_of_not_mem scM1.view _ (k0_off1_inb (grid0.coords t) h3) w [] idx
    (o := 512 * (t.val % 16)) (W := 512) (off1_eq t) rfl (Or.inl (by rw [hm]; exact h0))).trans ?_
  exact hidden_array_read_no_store s1 idx

variable (m : (ℓ : Loc nD τ sig) → Buf (Elt F) ℓ)

theorem Carried.first (c : Dev nD) (t : Fin cfg0.N) (hz : t.val = 0) (h3 : k0_cond3 (grid0.coords t) = 1#1)
    (s1 : Vec F S8192x32 .f32) :
    Carried m c (t.val + 1) (k0_pay1 (iblk m c 0 t) (iblk m c 1 t))
      (scM1.view.read (Elt F) (scM1.view.writes (Elt F) ((Memref.isWhole_whole cc0_scratch1).unread s1)
        [⟨Rect.unit (k0_off1 (grid0.coords t)) S512x32.size (k0_off1_inb (grid0.coords t) h3),
          k0_pay4 (grid0.coords t) (iblk m c 5 t) (k0_pay1 (iblk m c 0 t) (iblk m c 1 t)) (iblk m c 2 t) (iblk m c 4 t)⟩])) := by
  have ht : t = pt 0 (by decide) := Fin.ext hz
  subst ht
  refine ⟨fun _ _ => rfl, fun h => absurd h (by rw [pt_val]; omega), ?_⟩
  intro j hj hjn y idx h0 h1
  have hj0 : j = 0 := by rw [pt_val] at hjn; omega
  subst hj0
  exact hidden_array_read_stored_block (pt 0 (by decide)) (by rw [pt_val]; omega) h3 s1 _ y idx (by rw [pt_val]; exact h0) h1

theorem Carried.hidden (c : Dev nD) (t : Fin cfg0.N) (h0 : 0 < t.val) (hlt : t.val < 16) (h3 : k0_cond3 (grid0.coords t) = 1#1)
    (s0 : Vec F S8192x32 .bf16) (s1 : Vec F S8192x32 .f32) (hC : Carried m c t.val s0 s1) :
    Carried m c (t.val + 1) s0
      (scM1.view.read (Elt F) (scM1.view.writes (Elt F) ((Memref.isWhole_whole cc0_scratch1).unread s1)
        [⟨Rect.unit (k0_off1 (grid0.coords t)) S512x32.size (k0_off1_inb (grid0.coords t) h3),
          k0_pay4 (grid0.coords t) (iblk m c 5 t) s0 (iblk m c 2 t) (iblk m c 4 t)⟩])) := by
  refine ⟨fun _ _ => hC.1 (by omega) (by omega), fun h => absurd h (by omega), ?_⟩
  intro j hj hjn y idx h0 h1
  by_cases hjt : j < t.val
  · have hy0 : (y 0).val < 512 := y 0 |>.isLt
    refine (hidden_array_read_below_block t hlt h3 s1 _ idx (by omega)).trans ?_
    exact hC.2.2 j hj hjt y idx h0 h1
  · have hjt' : j = t.val := by omega
    subst hjt'
    refine (hidden_array_read_stored_block t hlt h3 s1 _ y idx h0 h1).trans ?_
    have hs0 : s0 = featT m c := hC.1 (by omega) (by omega)
    subst hs0
    have hp : pt t.val (by omega) = t := pt_self t (by omega)
    unfold hidBlk
    rw [hp]

theorem Carried.switch (c : Dev nD) (t : Fin cfg0.N) (ht : t.val = 16)
    (s0 : Vec F S8192x32 .bf16) (s1 : Vec F S8192x32 .f32) (hC : Carried m c t.val s0 s1) :
    Carried m c (t.val + 1) (k0_pay2 s1 (iblk m c 3 t)) s1
      ∧ k0_pay3 (grid0.coords t) (iblk m c 5 t) (k0_pay2 s1 (iblk m c 3 t)) (iblk m c 2 t) (iblk m c 4 t) = outBlk m c t := by
  have hs1 : s1 = hidAll m c := hC.hid_eq m (by omega)
  have hp : t = pt 16 (by decide) := Fin.ext ht
  subst hs1
  refine ⟨⟨fun _ h => absurd h (by omega), fun _ => ?_, fun j hj hjn => hC.2.2 j hj (by omega)⟩, ?_⟩
  · subst hp; rfl
  · subst hp; rfl

theorem Carried.out (c : Dev nD) (t : Fin cfg0.N) (ht : 16 < t.val)
    (s0 : Vec F S8192x32 .bf16) (s1 : Vec F S8192x32 .f32) (hC : Carried m c t.val s0 s1) :
    Carried m c (t.val + 1) s0 s1
      ∧ k0_pay3 (grid0.coords t) (iblk m c 5 t) s0 (iblk m c 2 t) (iblk m c 4 t) = outBlk m c t := by
  have hs0 : s0 = featT2 m c := hC.2.1 (by omega)
  subst hs0
  exact ⟨⟨fun _ h => absurd h (by omega), fun _ => rfl, fun j hj hjn => hC.2.2 j hj (by omega)⟩, rfl⟩

end Cert.Kernel.Gen
end
-- ==== Proof.StoreRead.lean ====
/-
  A store through the whole-shape rectangle at zero offsets reads back as its payload, whatever the buffer held.
-/
import Idealize.ShloMosaic.Lib.WritesUnit

namespace Idealize.ShloMosaic.View

variable {sig : RefSig} {κ : Kind} {sp : Space} {S : Shape} {e : EltTy} {Val : EltTy → Type}

theorem read_store_whole (v : View sig κ sp S e) (f : v.ty.Contents Val) {off : Fin S.rank → ℕ} (h : off = fun _ => 0)
    (inb : ∀ a, off a + S.size a ≤ S.size a) (w : S.Idx → Val e) :
    v.read Val (v.writes Val f [(⟨Rect.unit off S.size inb, w⟩ : Piece Val S e)]) = w :=
  funext fun y => read_writes_cons_unit_of_mem v f inb w [] y y h (fun _ => (Nat.zero_add _).symm)

end Idealize.ShloMosaic.View
-- ==== Proof.Bits.StepFirst.lean ====
/-
  The first grid point, (l, i) = (0, 0): the body computes x·W1 into the support scratch, then stores block 0 of the hidden layer;
  the result window's buffer is not touched.
-/
import proofs.«131990_g28389733826938_cont_9to1_253_4_alg».proof.Proof.Bits.Branches
import proofs.«131990_g28389733826938_cont_9to1_253_4_alg».proof.Proof.StoreRead
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_first (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : condFirst i) (h2 : ¬condSwitch i) (h3 : k0_cond3 i = 1#1) (h4 : ¬k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare o ∗ owns (c : Thread nD τ) arg9 fullShare (k0_pay1 x w1)
            ∗ owns (c : Thread nD τ) arg10 fullShare (arg10.view.read (Elt F) (arg10.view.writes (Elt F) (harg10.unread s1)
                [⟨Rect.unit (k0_off1 i) S512x32.size (k0_off1_inb i h3), k0_pay4 i a (k0_pay1 x w1) b1 b2⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro; exact View.read_store_whole _ _ hz _ _
  iexists _; isplitr; · ipureintro; rfl
  iexact H10

end Cert.Kernel.Gen
end
-- ==== Proof.Bits.StepHidden.lean ====
/-
  A later point of layer 0, (l, i) = (0, i) with 0 < i: the support scratch is read, block i of the hidden layer is stored;
  nothing else changes.
-/
import proofs.«131990_g28389733826938_cont_9to1_253_4_alg».proof.Proof.Bits.Branches
import proofs.«131990_g28389733826938_cont_9to1_253_4_alg».proof.Proof.StoreRead
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_hidden (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : ¬condSwitch i) (h3 : k0_cond3 i = 1#1) (h4 : ¬k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare o ∗ owns (c : Thread nD τ) arg9 fullShare s0
            ∗ owns (c : Thread nD τ) arg10 fullShare (arg10.view.read (Elt F) (arg10.view.writes (Elt F) (harg10.unread s1)
                [⟨Rect.unit (k0_off1 i) S512x32.size (k0_off1_inb i h3), k0_pay4 i a s0 b1 b2⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; · ipureintro; rfl
  iexact H10

end Cert.Kernel.Gen
end
-- ==== Proof.Bits.StepSwitch.lean ====
/-
  The first point of layer 1, (l, i) = (1, 0): the body reads the hidden scratch whole and computes hidden·W2 into the support
  scratch, then stores block 0 of the result into the result window's buffer.
-/
import proofs.«131990_g28389733826938_cont_9to1_253_4_alg».proof.Proof.Bits.Branches
import proofs.«131990_g28389733826938_cont_9to1_253_4_alg».proof.Proof.StoreRead
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_switch (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : condSwitch i) (h3 : ¬k0_cond3 i = 1#1) (h4 : k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare (k0_pay3 i a (k0_pay2 s1 w2) b1 b2) ∗ owns (c : Thread nD τ) arg9 fullShare (k0_pay2 s1 w2)
            ∗ owns (c : Thread nD τ) arg10 fullShare s1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact View.read_store_whole _ _ hz _ _
  isplitl [H9]
  · iexists _; isplitr
    swap; · iexact H9
    ipureintro; exact View.read_store_whole _ _ hz _ _
  iexists _; isplitr; · ipureintro; exact harg10.read_unread _
  iexact H10

end Cert.Kernel.Gen
end
-- ==== Proof.Bits.StepOut.lean ====
/-
  A later point of layer 1, (l, i) = (1, i) with 0 < i: the support scratch is read and block i of the result is stored into the
  result window's buffer; the scratch arrays are unchanged.
-/
import proofs.«131990_g28389733826938_cont_9to1_253_4_alg».proof.Proof.Bits.Branches
import proofs.«131990_g28389733826938_cont_9to1_253_4_alg».proof.Proof.StoreRead
import Idealize.ShloMosaic.Lib.Pipeline.Value
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_out (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : ¬condSwitch i) (h3 : ¬k0_cond3 i = 1#1) (h4 : k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare (k0_pay3 i a s0 b1 b2) ∗ owns (c : Thread nD τ) arg9 fullShare s0
            ∗ owns (c : Thread nD τ) arg10 fullShare s1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact View.read_store_whole _ _ hz _ _
  isplitl [H9]
  · iexists _; isplitr; · ipureintro; exact harg9.read_unread _
    iexact H9
  iexists _; isplitr; · ipureintro; exact harg10.read_unread _
  iexact H10

end Cert.Kernel.Gen
end
-- ==== Proof.Bits.PointBody.lean ====
/-
  The body obligation: at every grid point, from the invariant on the scratch arrays and every window's buffer at what it
  then holds, the body runs to the invariant at the next point and every buffer at what the proof data says it leaves. The
  point's kind (first point, later point of layer 0, first point of layer 1, later point of layer 1) is decided by the
  closed forms of the branch conditions; each kind is that kind's whole-body run, and the relation on the scratch arrays
  is carried across by `Carried.first` … `Carried.out`. Through layer 0 the result window is idle and not written back:
  its buffer is handed back as found.
-/
import proofs.«131990_g28389733826938_cont_9to1_253_4_alg».proof.Proof.Bits.CarriedStep
import proofs.«131990_g28389733826938_cont_9to1_253_4_alg».proof.Proof.Bits.StepFirst
import proofs.«131990_g28389733826938_cont_9to1_253_4_alg».proof.Proof.Bits.StepHidden
import proofs.«131990_g28389733826938_cont_9to1_253_4_alg».proof.Proof.Bits.StepSwitch
import proofs.«131990_g28389733826938_cont_9to1_253_4_alg».proof.Proof.Bits.StepOut
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_eq, Phi_eq]
  simp only [Fin.coe_castSucc, Fin.val_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [show (dats m 0 c).leavesExact 4 t = owns (c : Thread nD τ) (ms4 t) fullShare ((dats m 0 c).after 4 t) from by
    unfold Dat.leavesExact; rw [liveIn4 t], after4]
  rw [show (dats m 0 c).leavesExact 5 t = owns (c : Thread nD τ) (ms5 t) fullShare ((dats m 0 c).after 5 t) from by
    unfold Dat.leavesExact; rw [liveIn5 t], after5]
  have hN : t.val < 32 := lt_of_lt_of_eq t.isLt (show cfg0.N = 32 from N_0)
  unfold PhiS
  by_cases hlt : t.val < 16
  · rw [Dat.leavesExact_idle (dats m 0 c) 6 t (idleOut t hlt) (noFlushOut t hlt)]
    have h2 : ¬condSwitch (grid0.coords t) := fun h => by have := (hcondSwitch t).mp h; omega
    have h3 : k0_cond3 (grid0.coords t) = 1#1 := (hcondHid t).mpr hlt
    have h4 : ¬k0_cond4 (grid0.coords t) = 1#1 := fun h => by have := (hcondOut t).mp h; omega
    iintro ⟨⟨%s0, %s1, %hC, HS0, HS1, Hg⟩, Ho, ⟨%d0, H0⟩, ⟨%d1, H1⟩, ⟨%d2, H2⟩, ⟨%d3, H3⟩, ⟨%d4, H4⟩, ⟨%d5, H5⟩, ⟨%d6, H6⟩⟩
    by_cases hz : t.val = 0
    · have h1 : condFirst (grid0.coords t) := (hcondFirst t).mpr hz
      iapply (run_first c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; iexists _
        isplitr; · ipureintro; exact Carried.first m c t hz h3 s1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

    · have h1 : ¬condFirst (grid0.coords t) := fun h => hz ((hcondFirst t).mp h)
      iapply (run_hidden c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; iexists _
        isplitr; · ipureintro; exact Carried.hidden m c t (Nat.pos_of_ne_zero hz) hlt h3 s0 s1 hC
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

  · have hge : 16 ≤ t.val := Nat.le_of_not_lt hlt
    rw [show (dats m 0 c).leavesExact 6 t = owns (c : Thread nD τ) (ms6 t) fullShare ((dats m 0 c).after 6 t) from by
      unfold Dat.leavesExact; rw [liveOut t hge], after6]
    have h1 : ¬condFirst (grid0.coords t) := fun h => by have := (hcondFirst t).mp h; omega
    have h3 : ¬k0_cond3 (grid0.coords t) = 1#1 := fun h => by have := (hcondHid t).mp h; omega
    have h4 : k0_cond4 (grid0.coords t) = 1#1 := (hcondOut t).mpr hge
    iintro ⟨⟨%s0, %s1, %hC, HS0, HS1, Hg⟩, Ho, ⟨%d0, H0⟩, ⟨%d1, H1⟩, ⟨%d2, H2⟩, ⟨%d3, H3⟩, ⟨%d4, H4⟩, ⟨%d5, H5⟩, ⟨%d6, H6⟩⟩
    by_cases hs : t.val = 16
    · have h2 : condSwitch (grid0.coords t) := (hcondSwitch t).mpr hs
      iapply (run_switch c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      rw [(Carried.switch m c t hs s0 s1 hC).2]
      isplitl [HS0 HS1 Hg]
      · iexists _; iexists _
        isplitr; · ipureintro; exact (Carried.switch m c t hs s0 s1 hC).1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

    · have h2 : ¬condSwitch (grid0.coords t) := fun h => hs ((hcondSwitch t).mp h)
      iapply (run_out c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      rw [(Carried.out m c t (by omega) s0 s1 hC).2]
      isplitl [HS0 HS1 Hg]
      · iexists _; iexists _
        isplitr; · ipureintro; exact (Carried.out m c t (by omega) s0 s1 hC).1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Gen
end
-- ==== Proof.Bits.RegionRun.lean ====
/-
  The frame run of the one region: with the proof data and the body obligation at every point, every weakly fair execution of
  @main terminates with each array of the pipeline at what the write-backs leave in it and every other unscoped buffer as
  the region found it; read at the six argument arrays that is the frame claim.
-/
import proofs.«131990_g28389733826938_cont_9to1_253_4_alg».proof.Proof.Bits.PointBody
set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its six argument arrays as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.Kernel.Gen
end
-- ==== Proof.Branches.lean ====
/-
  The four kinds of grid point of the two-layer graph convolution, as conditions on the coordinates (l, i) and in closed
  form over the 32 points t = 16·l + i: the first point (t = 0) computes the feature transform x·W1; the points of
  layer 0 (t < 16) each store one 512-row block of the hidden layer; the first point of layer 1 (t = 16) computes
  hidden·W2; the points of layer 1 (16 ≤ t) each store one 512-row block of the result.
-/
import proofs.«131990_g28389733826938_cont_9to1_253_4_alg».proof.Proof.Gen.KernelIdeal.Frame
import proofs.«131990_g28389733826938_cont_9to1_253_4_alg».proof.Proof.Gen.KernelIdeal.Skeleton
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- (l, i) = (0, 0): the point that computes x·W1. -/
abbrev condFirst (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
/-- (l, i) = (1, 0): the point that computes hidden·W2. -/
abbrev condSwitch (i : grid0.Coords) : Prop :=
  Scalar.cmpi .ne (Scalar.extui (Scalar.andi (Scalar.cmpi .eq (BitVec.ofNat 32 (i 0).val) 1#32) (Scalar.cmpi .eq (BitVec.ofNat 32 (i 1).val) 0#32))) 0#32 = 1#1

theorem hcondFirst : ∀ t : Fin cfg0.N, condFirst (grid0.coords t) ↔ t.val = 0 :=
  (by decide +kernel : ∀ t : Fin grid0.N, condFirst (grid0.coords t) ↔ t.val = 0)
theorem hcondSwitch : ∀ t : Fin cfg0.N, condSwitch (grid0.coords t) ↔ t.val = 16 :=
  (by decide +kernel : ∀ t : Fin grid0.N, condSwitch (grid0.coords t) ↔ t.val = 16)
/-- l = 0 exactly at the first sixteen points. -/
theorem hcondHid : ∀ t : Fin cfg0.N, k0_cond3 (grid0.coords t) = 1#1 ↔ t.val < 16 :=
  (by decide +kernel : ∀ t : Fin grid0.N, k0_cond3 (grid0.coords t) = 1#1 ↔ t.val < 16)
/-- l = 1 exactly at the last sixteen. -/
theorem hcondOut : ∀ t : Fin cfg0.N, k0_cond4 (grid0.coords t) = 1#1 ↔ 16 ≤ t.val :=
  (by decide +kernel : ∀ t : Fin grid0.N, k0_cond4 (grid0.coords t) = 1#1 ↔ 16 ≤ t.val)
/-- The hidden layer's block stored at point t starts at row 512·(t mod 16). -/
theorem off1_eq : ∀ t : Fin cfg0.N, k0_off1 (grid0.coords t) = ![512 * (t.val % 16), 0] :=
  (by decide +kernel : ∀ t : Fin grid0.N, k0_off1 (grid0.coords t) = ![512 * (t.val % 16), 0])

/-- Through layer 0 the result window parks on block 0 and the body stores nothing into it. -/
theorem idleOut : ∀ t : Fin cfg0.N, t.val < 16 → cfg0.idle 6 (grid0.coords t) = true :=
  (by decide +kernel : ∀ t : Fin grid0.N, t.val < 16 → cfg0.idle 6 (grid0.coords t) = true)
theorem liveOut : ∀ t : Fin cfg0.N, 16 ≤ t.val → cfg0.idle 6 (grid0.coords t) = false :=
  (by decide +kernel : ∀ t : Fin grid0.N, 16 ≤ t.val → cfg0.idle 6 (grid0.coords t) = false)
/-- The block index l·i stays 0 up to the first point of layer 1, then moves at every point: nothing is written back
    during layer 0, every point of layer 1 writes its block back. -/
theorem noFlushOut : ∀ t : Fin cfg0.N, t.val < 16 → (cfg0.win 6).flush t = false :=
  (by decide +kernel : ∀ t : Fin grid0.N, t.val < 16 → win0_6.flush t = false)
theorem flushOut : ∀ t : Fin cfg0.N, 16 ≤ t.val → (cfg0.win 6).flush t = true :=
  (by decide +kernel : ∀ t : Fin grid0.N, 16 ≤ t.val → win0_6.flush t = true)
/-- The result block written back at point t (16 ≤ t) is block t − 16. -/
theorem indexOut : ∀ t : Fin cfg0.N, 16 ≤ t.val → ∀ a : Fin 2, win0_6.index t a = (![t.val - 16, 0] : Fin 2 → ℕ) a :=
  (by decide +kernel : ∀ t : Fin grid0.N, 16 ≤ t.val → ∀ a : Fin 2, win0_6.index t a = (![t.val - 16, 0] : Fin 2 → ℕ) a)
theorem liveIn0 : ∀ t : Fin cfg0.N, cfg0.idle 0 (grid0.coords t) = false := by decide +kernel
theorem liveIn1 : ∀ t : Fin cfg0.N, cfg0.idle 1 (grid0.coords t) = false := by decide +kernel
theorem liveIn2 : ∀ t : Fin cfg0.N, cfg0.idle 2 (grid0.coords t) = false := by decide +kernel
theorem liveIn3 : ∀ t : Fin cfg0.N, cfg0.idle 3 (grid0.coords t) = false := by decide +kernel
theorem liveIn4 : ∀ t : Fin cfg0.N, cfg0.idle 4 (grid0.coords t) = false := by decide +kernel
theorem liveIn5 : ∀ t : Fin cfg0.N, cfg0.idle 5 (grid0.coords t) = false := by decide +kernel

end Cert.KernelIdeal.Gen
end
-- ==== Proof.CarriedState.lean ====
/-
  What the graph convolution carries between grid points, and the pipeline's proof data.

  The kernel keeps two scratch arrays across its 32 points. The bf16 array holds the layer's support matrix: x·W1 from
  the first point on, hidden·W2 from the first point of layer 1 on. The f32 array collects the hidden layer
  lrelu(adj·(x·W1) + b1) one 512-row block per point of layer 0; it is complete after sixteen points and read whole
  once, at the first point of layer 1. Before its blocks are stored the array holds whatever the scratch held at
  entry, so the invariant is a relation on the contents (`Carried`), not a name for them: after n points the support
  matrix is the layer's, and rows below 512·min(n,16) of the hidden array are the hidden layer's rows.
  Each point of layer 1 leaves lrelu(adj_block·(hidden·W2) + b2) in the result window's buffer (`outBlk`).
-/
import proofs.«131990_g28389733826938_cont_9to1_253_4_alg».proof.Proof.Branches
import Idealize.ShloMosaic.Lib.ValueIdx
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

variable (m : (ℓ : Loc nD τ sig) → Buf (Elt F) ℓ) (ρ : Dev nD → PrngReg)

/-- Point number n of the grid's 32. -/
def pt (n : ℕ) (h : n < 32) : Fin cfg0.N := ⟨n, by rw [show cfg0.N = 32 from N_0]; exact h⟩

@[simp] theorem pt_val (n : ℕ) (h : n < 32) : (pt n h).val = n := rfl

theorem pt_self (t : Fin cfg0.N) (h : t.val < 32) : pt t.val h = t := Fin.ext rfl

/-- The two scratch arrays, whole. -/
abbrev scM0 : Memref sig .tc .vmem S8192x32 .bf16 := Memref.whole cc0_scratch0
abbrev scM1 : Memref sig .tc .vmem S8192x32 .f32 := Memref.whole cc0_scratch1

/-- Each window's current staging buffer at point t. -/
abbrev ms0 (t : Fin cfg0.N) : Memref sig .tc .vmem S8192x128 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x32 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x32 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S32x32 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S1x32 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x8192 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S512x32 .f32 := win0_6.stage (cfg0.slots t 6)
abbrev hs6 (t : Fin cfg0.N) : (ms6 t).IsWhole := hstage0_6 ((cfg0.slots t 6).cast nbuf0_6)

/-- x·W1 as the first point computes it from the two whole-array windows. -/
def featT (c : Dev nD) : Vec F S8192x32 .bf16 :=
  k0_pay1 (iblk m c 0 (pt 0 (by omega))) (iblk m c 1 (pt 0 (by omega)))

/-- Block j of the hidden layer, rows 512·j … 512·j + 511, as point (0, j) computes it:
    lrelu(adj_block_j · (x·W1) + b1). -/
def hidBlk (c : Dev nD) (j : ℕ) (hj : j < 16) : Vec F S512x32 .f32 :=
  k0_pay4 (grid0.coords (pt j (by omega))) (iblk m c 5 (pt j (by omega))) (featT m c) (iblk m c 2 (pt j (by omega))) (iblk m c 4 (pt j (by omega)))

/-- The hidden layer whole: row r is row r mod 512 of block r / 512. -/
def hidAll (c : Dev nD) : Vec F S8192x32 .f32 := fun idx =>
  hidBlk m c ((idx 0).val / 512) (by have := idx2_lt0 idx; omega)
    (ix2 (⟨(idx 0).val % 512, Nat.mod_lt _ (by norm_num)⟩ : Fin 512) (⟨(idx 1).val, idx2_lt1 idx⟩ : Fin 32))

/-- hidden·W2 as the first point of layer 1 computes it. -/
def featT2 (c : Dev nD) : Vec F S8192x32 .bf16 := k0_pay2 (hidAll m c) (iblk m c 3 (pt 16 (by omega)))

/-- What a point of layer 1 leaves in the result window's buffer: lrelu(adj_block · (hidden·W2) + b2). -/
def outBlk (c : Dev nD) (t : Fin cfg0.N) : Vec F S512x32 .f32 :=
  k0_pay3 (grid0.coords t) (iblk m c 5 t) (featT2 m c) (iblk m c 2 t) (iblk m c 4 t)

/-- The relation the two scratch arrays' contents satisfy after n points. -/
def Carried (c : Dev nD) (n : ℕ) (s0 : Vec F S8192x32 .bf16) (s1 : Vec F S8192x32 .f32) : Prop :=
  (1 ≤ n → n ≤ 16 → s0 = featT m c) ∧ (17 ≤ n → s0 = featT2 m c) ∧
  ∀ (j : ℕ) (hj : j < 16), j < n → ∀ (y : S512x32.Idx) (idx : S8192x32.Idx),
    (idx 0).val = 512 * j + (y 0).val → (idx 1).val = (y 1).val → s1 idx = hidBlk m c j hj y

theorem Carried_zero (c : Dev nD) (s0 : Vec F S8192x32 .bf16) (s1 : Vec F S8192x32 .f32) : Carried m c 0 s0 s1 :=
  ⟨fun h => absurd h (by omega), fun h => absurd h (by omega), fun j _ h => absurd h (by omega)⟩

/-- Once all sixteen blocks are stored the hidden array is the hidden layer. -/
theorem Carried.hid_eq {c : Dev nD} {n : ℕ} {s0 : Vec F S8192x32 .bf16} {s1 : Vec F S8192x32 .f32}
    (h : Carried m c n s0 s1) (hn : 16 ≤ n) : s1 = hidAll m c := by
  funext idx
  have h0 := idx2_lt0 idx
  exact h.2.2 ((idx 0).val / 512) (by omega) (by omega) _ idx
    (by show (idx 0).val = 512 * ((idx 0).val / 512) + (idx 0).val % 512; omega) rfl

/-- The region invariant before point n: the scratch arrays at contents so related, the generator register at some state. -/
def PhiS (c : Dev nD) (n : ℕ) : sProp 𝕄 :=
  iprop(∃ s0 s1, ⌜Carried m c n s0 s1⌝ ∗ owns (c : Thread nD τ) scM0 fullShare s0 ∗ owns (c : Thread nD τ) scM1 fullShare s1 ∗ (∃ r, prngReg c r))

/-- The proof data of the one pipeline on core c: the arrays as the region finds them; every input window's buffer at its
    block after the body; the result window's at `outBlk` (read only where the window is live: the points of layer 1). -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outBlk m c t
  Φ t := PhiS m c t.val
  q _ := fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = outBlk m c t := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d
theorem before4 (c : Dev nD) (t : Fin cfg0.N) (d) : (dats m 0 c).before 4 t d = iblk m c 4 t :=
  before0_4_of m (dats m 0 c) (A_eq m c 4) (after4 m c) t d
theorem before5 (c : Dev nD) (t : Fin cfg0.N) (d) : (dats m 0 c).before 5 t d = iblk m c 5 t :=
  before0_5_of m (dats m 0 c) (A_eq m c 5) (after5 m c) t d

theorem Phi_eq (c : Dev nD) (t : Fin (cfg0.N + 1)) : (dats m 0 c).Φ t = PhiS m c t.val := by dsimp only [dats]

/-- The class invariant with the two scratch arrays as memrefs owned at some contents. -/
theorem PhiA_eq (c : Dev nD) :
    (Pipeline.ΦA spec0 c : sProp 𝕄)
      = iprop(iprop((∃ d, owns (c : Thread nD τ) scM0 fullShare d) ∗ (∃ d, owns (c : Thread nD τ) scM1 fullShare d)) ∗ (∃ r, prngReg c r)) := by
  unfold Pipeline.ΦA; rw [scopedRest0_eq]; simp only [scM0, scM1, owns_whole]; try rfl

/-- What the launch hands the region is the invariant before the first point: no relation is asked of the contents yet. -/
theorem hin (c : Dev nD) : Pipeline.ΦA spec0 c ⊢ (dats m 0 c).Φ 0 := by
  rw [Phi_eq, PhiA_eq]; unfold PhiS
  iintro ⟨⟨⟨%d0, H0⟩, ⟨%d1, H1⟩⟩, Hg⟩
  iexists d0; iexists d1
  isplitr; · ipureintro; exact Carried_zero m c d0 d1
  isplitl [H0]; · iexact H0
  isplitl [H1]; · iexact H1
  iexact Hg

/-- After the last point the relation is forgotten. -/
theorem hout (c : Dev nD) : (dats m 0 c).Φ (Fin.last cfg0.N) ⊢ Pipeline.ΦA spec0 c := by
  rw [Phi_eq, PhiA_eq]; unfold PhiS
  iintro ⟨%s0, %s1, -, H0, H1, Hg⟩
  isplitr [Hg]
  · isplitl [H0]
    · iexists _; iexact H0
    · iexists _; iexact H1
  iexact Hg

end Cert.KernelIdeal.Gen
end
-- ==== Proof.CarriedStep.lean ====
/-
  The relation on the two scratch arrays is kept by every kind of point: the first point installs x·W1 and block 0 of
  the hidden layer; a later point of layer 0 adds its block and touches no row below it; the first point of layer 1 finds
  the hidden array complete, installs hidden·W2 and leaves the block the proof data names; a later point of layer 1
  changes nothing and leaves its block.
-/
import proofs.«131990_g28389733826938_cont_9to1_253_4_alg».proof.Proof.CarriedState
import Idealize.ShloMosaic.Lib.WritesUnit
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

open Idealize.ShloMosaic.ValueIdx

/-- Reading through the whole array what was put back unread gives the contents again: with no store the hidden array
    reads as it did. -/
theorem hidden_array_read_no_store (s1 : Vec F S8192x32 .f32) (idx : S8192x32.Idx) :
    scM1.view.read (Elt F) (scM1.view.writes (Elt F) ((Memref.isWhole_whole cc0_scratch1).unread s1) []) idx = s1 idx := by
  rw [View.writes_nil]
  exact congrFun ((Memref.isWhole_whole cc0_scratch1).read_unread s1) idx

/-- Row 512·t + y₀, column y₁ of the hidden array, after point t < 16 has stored its block w, is w at (y₀, y₁). -/
theorem hidden_array_read_stored_block (t : Fin cfg0.N) (hlt : t.val < 16) (h3 : k0_cond3 (grid0.coords t) = 1#1)
    (s1 : Vec F S8192x32 .f32) (w : Vec F S512x32 .f32) (y : S512x32.Idx) (idx : S8192x32.Idx)
    (h0 : (idx 0).val = 512 * t.val + (y 0).val) (h1 : (idx 1).val = (y 1).val) :
    scM1.view.read (Elt F) (scM1.view.writes (Elt F) ((Memref.isWhole_whole cc0_scratch1).unread s1)
        [⟨Rect.unit (k0_off1 (grid0.coords t)) S512x32.size (k0_off1_inb (grid0.coords t) h3), w⟩]) idx = w y := by
  have hm : t.val % 16 = t.val := Nat.mod_eq_of_lt hlt
  exact View.read_writes_cons_rows_of_mem scM1.view _ (k0_off1_inb (grid0.coords t) h3) w [] idx y
    (o := 512 * (t.val % 16)) (off1_eq t) (by rw [hm]; exact h0) h1

/-- A row below 512·t of the hidden array is not touched by the store of point t < 16. -/
theorem hidden_array_read_below_block (t : Fin cfg0.N) (hlt : t.val < 16) (h3 : k0_cond3 (grid0.coords t) = 1#1)
    (s1 : Vec F S8192x32 .f32) (w : Vec F S512x32 .f32) (idx : S8192x32.Idx)
    (h0 : (idx 0).val < 512 * t.val) :
    scM1.view.read (Elt F) (scM1.view.writes (Elt F) ((Memref.isWhole_whole cc0_scratch1).unread s1)
        [⟨Rect.unit (k0_off1 (grid0.coords t)) S512x32.size (k0_off1_inb (grid0.coords t) h3), w⟩]) idx = s1 idx := by
  have hm : t.val % 16 = t.val := Nat.mod_eq_of_lt hlt
  refine (View.read_writes_cons_rows_of_not_mem scM1.view _ (k0_off1_inb (grid0.coords t) h3) w [] idx
    (o := 512 * (t.val % 16)) (W := 512) (off1_eq t) rfl (Or.inl (by rw [hm]; exact h0))).trans ?_
  exact hidden_array_read_no_store s1 idx

variable (m : (ℓ : Loc nD τ sig) → Buf (Elt F) ℓ)

theorem Carried.first (c : Dev nD) (t : Fin cfg0.N) (hz : t.val = 0) (h3 : k0_cond3 (grid0.coords t) = 1#1)
    (s1 : Vec F S8192x32 .f32) :
    Carried m c (t.val + 1) (k0_pay1 (iblk m c 0 t) (iblk m c 1 t))
      (scM1.view.read (Elt F) (scM1.view.writes (Elt F) ((Memref.isWhole_whole cc0_scratch1).unread s1)
        [⟨Rect.unit (k0_off1 (grid0.coords t)) S512x32.size (k0_off1_inb (grid0.coords t) h3),
          k0_pay4 (grid0.coords t) (iblk m c 5 t) (k0_pay1 (iblk m c 0 t) (iblk m c 1 t)) (iblk m c 2 t) (iblk m c 4 t)⟩])) := by
  have ht : t = pt 0 (by decide) := Fin.ext hz
  subst ht
  refine ⟨fun _ _ => rfl, fun h => absurd h (by rw [pt_val]; omega), ?_⟩
  intro j hj hjn y idx h0 h1
  have hj0 : j = 0 := by rw [pt_val] at hjn; omega
  subst hj0
  exact hidden_array_read_stored_block (pt 0 (by decide)) (by rw [pt_val]; omega) h3 s1 _ y idx (by rw [pt_val]; exact h0) h1

theorem Carried.hidden (c : Dev nD) (t : Fin cfg0.N) (h0 : 0 < t.val) (hlt : t.val < 16) (h3 : k0_cond3 (grid0.coords t) = 1#1)
    (s0 : Vec F S8192x32 .bf16) (s1 : Vec F S8192x32 .f32) (hC : Carried m c t.val s0 s1) :
    Carried m c (t.val + 1) s0
      (scM1.view.read (Elt F) (scM1.view.writes (Elt F) ((Memref.isWhole_whole cc0_scratch1).unread s1)
        [⟨Rect.unit (k0_off1 (grid0.coords t)) S512x32.size (k0_off1_inb (grid0.coords t) h3),
          k0_pay4 (grid0.coords t) (iblk m c 5 t) s0 (iblk m c 2 t) (iblk m c 4 t)⟩])) := by
  refine ⟨fun _ _ => hC.1 (by omega) (by omega), fun h => absurd h (by omega), ?_⟩
  intro j hj hjn y idx h0 h1
  by_cases hjt : j < t.val
  · have hy0 : (y 0).val < 512 := y 0 |>.isLt
    refine (hidden_array_read_below_block t hlt h3 s1 _ idx (by omega)).trans ?_
    exact hC.2.2 j hj hjt y idx h0 h1
  · have hjt' : j = t.val := by omega
    subst hjt'
    refine (hidden_array_read_stored_block t hlt h3 s1 _ y idx h0 h1).trans ?_
    have hs0 : s0 = featT m c := hC.1 (by omega) (by omega)
    subst hs0
    have hp : pt t.val (by omega) = t := pt_self t (by omega)
    unfold hidBlk
    rw [hp]

theorem Carried.switch (c : Dev nD) (t : Fin cfg0.N) (ht : t.val = 16)
    (s0 : Vec F S8192x32 .bf16) (s1 : Vec F S8192x32 .f32) (hC : Carried m c t.val s0 s1) :
    Carried m c (t.val + 1) (k0_pay2 s1 (iblk m c 3 t)) s1
      ∧ k0_pay3 (grid0.coords t) (iblk m c 5 t) (k0_pay2 s1 (iblk m c 3 t)) (iblk m c 2 t) (iblk m c 4 t) = outBlk m c t := by
  have hs1 : s1 = hidAll m c := hC.hid_eq m (by omega)
  have hp : t = pt 16 (by decide) := Fin.ext ht
  subst hs1
  refine ⟨⟨fun _ h => absurd h (by omega), fun _ => ?_, fun j hj hjn => hC.2.2 j hj (by omega)⟩, ?_⟩
  · subst hp; rfl
  · subst hp; rfl

theorem Carried.out (c : Dev nD) (t : Fin cfg0.N) (ht : 16 < t.val)
    (s0 : Vec F S8192x32 .bf16) (s1 : Vec F S8192x32 .f32) (hC : Carried m c t.val s0 s1) :
    Carried m c (t.val + 1) s0 s1
      ∧ k0_pay3 (grid0.coords t) (iblk m c 5 t) s0 (iblk m c 2 t) (iblk m c 4 t) = outBlk m c t := by
  have hs0 : s0 = featT2 m c := hC.2.1 (by omega)
  subst hs0
  exact ⟨⟨fun _ h => absurd h (by omega), fun _ => rfl, fun j hj hjn => hC.2.2 j hj (by omega)⟩, rfl⟩

end Cert.KernelIdeal.Gen
end
-- ==== Proof.StepFirst.lean ====
/-
  The first grid point, (l, i) = (0, 0): the body computes x·W1 into the support scratch, then stores block 0 of the hidden layer;
  the result window's buffer is not touched.
-/
import proofs.«131990_g28389733826938_cont_9to1_253_4_alg».proof.Proof.Branches
import proofs.«131990_g28389733826938_cont_9to1_253_4_alg».proof.Proof.StoreRead
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_first (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : condFirst i) (h2 : ¬condSwitch i) (h3 : k0_cond3 i = 1#1) (h4 : ¬k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare o ∗ owns (c : Thread nD τ) arg9 fullShare (k0_pay1 x w1)
            ∗ owns (c : Thread nD τ) arg10 fullShare (arg10.view.read (Elt F) (arg10.view.writes (Elt F) (harg10.unread s1)
                [⟨Rect.unit (k0_off1 i) S512x32.size (k0_off1_inb i h3), k0_pay4 i a (k0_pay1 x w1) b1 b2⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    swap; · iexact H9
    ipureintro; exact View.read_store_whole _ _ hz _ _
  iexists _; isplitr; · ipureintro; rfl
  iexact H10

end Cert.KernelIdeal.Gen
end
-- ==== Proof.StepHidden.lean ====
/-
  A later point of layer 0, (l, i) = (0, i) with 0 < i: the support scratch is read, block i of the hidden layer is stored;
  nothing else changes.
-/
import proofs.«131990_g28389733826938_cont_9to1_253_4_alg».proof.Proof.Branches
import proofs.«131990_g28389733826938_cont_9to1_253_4_alg».proof.Proof.StoreRead
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_hidden (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : ¬condSwitch i) (h3 : k0_cond3 i = 1#1) (h4 : ¬k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare o ∗ owns (c : Thread nD τ) arg9 fullShare s0
            ∗ owns (c : Thread nD τ) arg10 fullShare (arg10.view.read (Elt F) (arg10.view.writes (Elt F) (harg10.unread s1)
                [⟨Rect.unit (k0_off1 i) S512x32.size (k0_off1_inb i h3), k0_pay4 i a s0 b1 b2⟩]))) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  iexists _; isplitr; · ipureintro; rfl
  iexact H10

end Cert.KernelIdeal.Gen
end
-- ==== Proof.StepSwitch.lean ====
/-
  The first point of layer 1, (l, i) = (1, 0): the body reads the hidden scratch whole and computes hidden·W2 into the support
  scratch, then stores block 0 of the result into the result window's buffer.
-/
import proofs.«131990_g28389733826938_cont_9to1_253_4_alg».proof.Proof.Branches
import proofs.«131990_g28389733826938_cont_9to1_253_4_alg».proof.Proof.StoreRead
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_switch (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : condSwitch i) (h3 : ¬k0_cond3 i = 1#1) (h4 : k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare (k0_pay3 i a (k0_pay2 s1 w2) b1 b2) ∗ owns (c : Thread nD τ) arg9 fullShare (k0_pay2 s1 w2)
            ∗ owns (c : Thread nD τ) arg10 fullShare s1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact View.read_store_whole _ _ hz _ _
  isplitl [H9]
  · iexists _; isplitr
    swap; · iexact H9
    ipureintro; exact View.read_store_whole _ _ hz _ _
  iexists _; isplitr; · ipureintro; exact harg10.read_unread _
  iexact H10

end Cert.KernelIdeal.Gen
end
-- ==== Proof.StepOut.lean ====
/-
  A later point of layer 1, (l, i) = (1, i) with 0 < i: the support scratch is read and block i of the result is stored into the
  result window's buffer; the scratch arrays are unchanged.
-/
import proofs.«131990_g28389733826938_cont_9to1_253_4_alg».proof.Proof.Branches
import proofs.«131990_g28389733826938_cont_9to1_253_4_alg».proof.Proof.StoreRead
import Idealize.ShloMosaic.Lib.Pipeline.Value
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 1000000 in
theorem run_out (c : Dev nD) (i : grid0.Coords) (arg2 : Memref sig .tc .vmem S8192x128 .f32) (harg2 : arg2.IsWhole) (arg3 : Memref sig .tc .vmem S128x32 .f32) (harg3 : arg3.IsWhole) (arg4 : Memref sig .tc .vmem S1x32 .f32) (harg4 : arg4.IsWhole) (arg5 : Memref sig .tc .vmem S32x32 .f32) (harg5 : arg5.IsWhole) (arg6 : Memref sig .tc .vmem S1x32 .f32) (harg6 : arg6.IsWhole) (arg7 : Memref sig .tc .vmem S512x8192 .f32) (harg7 : arg7.IsWhole) (arg8 : Memref sig .tc .vmem S512x32 .f32) (harg8 : arg8.IsWhole) (arg9 : Memref sig .tc .vmem S8192x32 .bf16) (harg9 : arg9.IsWhole) (arg10 : Memref sig .tc .vmem S8192x32 .f32) (harg10 : arg10.IsWhole)
    (h1 : ¬condFirst i) (h2 : ¬condSwitch i) (h3 : ¬k0_cond3 i = 1#1) (h4 : k0_cond4 i = 1#1)
    (x : Vec F S8192x128 .f32) (w1 : Vec F S128x32 .f32) (b1 : Vec F S1x32 .f32) (w2 : Vec F S32x32 .f32) (b2 : Vec F S1x32 .f32)
    (a : Vec F S512x8192 .f32) (o : Vec F S512x32 .f32) (s0 : Vec F S8192x32 .bf16) (s1 : Vec F S8192x32 .f32)
    (E : Set ℕ) (K : PUnit → sProp 𝕄) :
    iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
        ∗ owns (c : Thread nD τ) arg8 fullShare o ∗ owns (c : Thread nD τ) arg9 fullShare s0 ∗ owns (c : Thread nD τ) arg10 fullShare s1
        ∗ (iprop(owns (c : Thread nD τ) arg2 fullShare x ∗ owns (c : Thread nD τ) arg3 fullShare w1 ∗ owns (c : Thread nD τ) arg4 fullShare b1
        ∗ owns (c : Thread nD τ) arg5 fullShare w2 ∗ owns (c : Thread nD τ) arg6 fullShare b2 ∗ owns (c : Thread nD τ) arg7 fullShare a
            ∗ owns (c : Thread nD τ) arg8 fullShare (k0_pay3 i a s0 b1 b2) ∗ owns (c : Thread nD τ) arg9 fullShare s0
            ∗ owns (c : Thread nD τ) arg10 fullShare s1) -∗ K ⟨⟩))
      ⊢ wp frame (wpE (defs₀ (F := F)) Variants.none c none) E (cc0__gcn_body i arg2 harg2 arg3 harg3 arg4 harg4 arg5 harg5 arg6 harg6 arg7 harg7 arg8 harg8 arg9 harg9 arg10 harg10) K := by
  have hz : (![0, 0] : Fin 2 → ℕ) = fun _ => 0 := by funext a; fin_cases a <;> rfl
  simp only [cc0__gcn_body_eq_skeleton]; unfold cc0__gcn_body_skel
  simp only [k0_part1_eq_skeleton]; unfold k0_part1_skel
  unfold owns
  iintro ⟨⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, Hk⟩
  obtain rfl := harg2.eq_unread hf2; obtain rfl := harg3.eq_unread hf3; obtain rfl := harg4.eq_unread hf4
  obtain rfl := harg5.eq_unread hf5; obtain rfl := harg6.eq_unread hf6; obtain rfl := harg7.eq_unread hf7
  obtain rfl := harg8.eq_unread hf8; obtain rfl := harg9.eq_unread hf9; obtain rfl := harg10.eq_unread hf10
  sl_exec (disch := first | exact h1 | exact h2 | exact h3 | exact h4)
  sl_step
  sl_unfold_run_names
  simp only [View.readCov_unit_zero (S := S8192x32) _ hz, View.readAt_eq_ld, Memref.IsWhole.read_unread, View.ld_unit_zero (S := S512x8192) hz, View.ld_unit_zero (S := S8192x32) hz, View.ld_unit_zero (S := S1x32) hz, View.ld_unit_zero (S := S8192x128) hz, View.ld_unit_zero (S := S128x32) hz, View.ld_unit_zero (S := S32x32) hz]
  iapply Hk
  isplitl [H2]
  · iexists _; isplitr; · ipureintro; exact harg2.read_unread _
    iexact H2
  isplitl [H3]
  · iexists _; isplitr; · ipureintro; exact harg3.read_unread _
    iexact H3
  isplitl [H4]
  · iexists _; isplitr; · ipureintro; exact harg4.read_unread _
    iexact H4
  isplitl [H5]
  · iexists _; isplitr; · ipureintro; exact harg5.read_unread _
    iexact H5
  isplitl [H6]
  · iexists _; isplitr; · ipureintro; exact harg6.read_unread _
    iexact H6
  isplitl [H7]
  · iexists _; isplitr; · ipureintro; exact harg7.read_unread _
    iexact H7
  isplitl [H8]
  · iexists _; isplitr
    swap; · iexact H8
    ipureintro; exact View.read_store_whole _ _ hz _ _
  isplitl [H9]
  · iexists _; isplitr; · ipureintro; exact harg9.read_unread _
    iexact H9
  iexists _; isplitr; · ipureintro; exact harg10.read_unread _
  iexact H10

end Cert.KernelIdeal.Gen
end
-- ==== Proof.PointBody.lean ====
/-
  The body obligation: at every grid point, from the invariant on the scratch arrays and every window's buffer at what it
  then holds, the body runs to the invariant at the next point and every buffer at what the proof data says it leaves. The
  point's kind (first point, later point of layer 0, first point of layer 1, later point of layer 1) is decided by the
  closed forms of the branch conditions; each kind is that kind's whole-body run, and the relation on the scratch arrays
  is carried across by `Carried.first` … `Carried.out`. Through layer 0 the result window is idle and not written back:
  its buffer is handed back as found.
-/
import proofs.«131990_g28389733826938_cont_9to1_253_4_alg».proof.Proof.CarriedStep
import proofs.«131990_g28389733826938_cont_9to1_253_4_alg».proof.Proof.StepFirst
import proofs.«131990_g28389733826938_cont_9to1_253_4_alg».proof.Proof.StepHidden
import proofs.«131990_g28389733826938_cont_9to1_253_4_alg».proof.Proof.StepSwitch
import proofs.«131990_g28389733826938_cont_9to1_253_4_alg».proof.Proof.StepOut
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is called with at point t, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 4000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5]
  rw [show (dats m 0 c).owesAt () t.succ = (dats m 0 c).owesAt () t.castSucc from rfl]
  rw [Phi_eq, Phi_eq]
  simp only [Fin.coe_castSucc, Fin.val_succ]
  rw [show (dats m 0 c).leavesExact 0 t = owns (c : Thread nD τ) (ms0 t) fullShare ((dats m 0 c).after 0 t) from by
    unfold Dat.leavesExact; rw [liveIn0 t], after0]
  rw [show (dats m 0 c).leavesExact 1 t = owns (c : Thread nD τ) (ms1 t) fullShare ((dats m 0 c).after 1 t) from by
    unfold Dat.leavesExact; rw [liveIn1 t], after1]
  rw [show (dats m 0 c).leavesExact 2 t = owns (c : Thread nD τ) (ms2 t) fullShare ((dats m 0 c).after 2 t) from by
    unfold Dat.leavesExact; rw [liveIn2 t], after2]
  rw [show (dats m 0 c).leavesExact 3 t = owns (c : Thread nD τ) (ms3 t) fullShare ((dats m 0 c).after 3 t) from by
    unfold Dat.leavesExact; rw [liveIn3 t], after3]
  rw [show (dats m 0 c).leavesExact 4 t = owns (c : Thread nD τ) (ms4 t) fullShare ((dats m 0 c).after 4 t) from by
    unfold Dat.leavesExact; rw [liveIn4 t], after4]
  rw [show (dats m 0 c).leavesExact 5 t = owns (c : Thread nD τ) (ms5 t) fullShare ((dats m 0 c).after 5 t) from by
    unfold Dat.leavesExact; rw [liveIn5 t], after5]
  have hN : t.val < 32 := lt_of_lt_of_eq t.isLt (show cfg0.N = 32 from N_0)
  unfold PhiS
  by_cases hlt : t.val < 16
  · rw [Dat.leavesExact_idle (dats m 0 c) 6 t (idleOut t hlt) (noFlushOut t hlt)]
    have h2 : ¬condSwitch (grid0.coords t) := fun h => by have := (hcondSwitch t).mp h; omega
    have h3 : k0_cond3 (grid0.coords t) = 1#1 := (hcondHid t).mpr hlt
    have h4 : ¬k0_cond4 (grid0.coords t) = 1#1 := fun h => by have := (hcondOut t).mp h; omega
    iintro ⟨⟨%s0, %s1, %hC, HS0, HS1, Hg⟩, Ho, ⟨%d0, H0⟩, ⟨%d1, H1⟩, ⟨%d2, H2⟩, ⟨%d3, H3⟩, ⟨%d4, H4⟩, ⟨%d5, H5⟩, ⟨%d6, H6⟩⟩
    by_cases hz : t.val = 0
    · have h1 : condFirst (grid0.coords t) := (hcondFirst t).mpr hz
      iapply (run_first c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; iexists _
        isplitr; · ipureintro; exact Carried.first m c t hz h3 s1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

    · have h1 : ¬condFirst (grid0.coords t) := fun h => hz ((hcondFirst t).mp h)
      iapply (run_hidden c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      isplitl [HS0 HS1 Hg]
      · iexists _; iexists _
        isplitr; · ipureintro; exact Carried.hidden m c t (Nat.pos_of_ne_zero hz) hlt h3 s0 s1 hC
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexists _; iexact H6

  · have hge : 16 ≤ t.val := Nat.le_of_not_lt hlt
    rw [show (dats m 0 c).leavesExact 6 t = owns (c : Thread nD τ) (ms6 t) fullShare ((dats m 0 c).after 6 t) from by
      unfold Dat.leavesExact; rw [liveOut t hge], after6]
    have h1 : ¬condFirst (grid0.coords t) := fun h => by have := (hcondFirst t).mp h; omega
    have h3 : ¬k0_cond3 (grid0.coords t) = 1#1 := fun h => by have := (hcondHid t).mp h; omega
    have h4 : k0_cond4 (grid0.coords t) = 1#1 := (hcondOut t).mpr hge
    iintro ⟨⟨%s0, %s1, %hC, HS0, HS1, Hg⟩, Ho, ⟨%d0, H0⟩, ⟨%d1, H1⟩, ⟨%d2, H2⟩, ⟨%d3, H3⟩, ⟨%d4, H4⟩, ⟨%d5, H5⟩, ⟨%d6, H6⟩⟩
    by_cases hs : t.val = 16
    · have h2 : condSwitch (grid0.coords t) := (hcondSwitch t).mpr hs
      iapply (run_switch c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      rw [(Carried.switch m c t hs s0 s1 hC).2]
      isplitl [HS0 HS1 Hg]
      · iexists _; iexists _
        isplitr; · ipureintro; exact (Carried.switch m c t hs s0 s1 hC).1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

    · have h2 : ¬condSwitch (grid0.coords t) := fun h => hs ((hcondSwitch t).mp h)
      iapply (run_out c (grid0.coords t) (ms0 t) (hs0 t) (ms1 t) (hs1 t) (ms2 t) (hs2 t) (ms3 t) (hs3 t) (ms4 t) (hs4 t) (ms5 t) (hs5 t) (ms6 t) (hs6 t) scM0 (Memref.isWhole_whole _) scM1 (Memref.isWhole_whole _) h1 h2 h3 h4 (iblk m c 0 t) (iblk m c 1 t) (iblk m c 2 t) (iblk m c 3 t) (iblk m c 4 t) (iblk m c 5 t) ((dats m 0 c).before 6 t d6) s0 s1 Set.univ _)
      isplitl [H0]; · iexact H0
      isplitl [H1]; · iexact H1
      isplitl [H2]; · iexact H2
      isplitl [H3]; · iexact H3
      isplitl [H4]; · iexact H4
      isplitl [H5]; · iexact H5
      isplitl [H6]; · iexact H6
      isplitl [HS0]; · iexact HS0
      isplitl [HS1]; · iexact HS1
      iintro ⟨H0, H1, H2, H3, H4, H5, H6, HS0, HS1⟩
      rw [(Carried.out m c t (by omega) s0 s1 hC).2]
      isplitl [HS0 HS1 Hg]
      · iexists _; iexists _
        isplitr; · ipureintro; exact (Carried.out m c t (by omega) s0 s1 hC).1
        isplitl [HS0]; · iexact HS0
        isplitl [HS1]; · iexact HS1
        iexact Hg
      isplitl [Ho]; · iexact Ho
      isplitl [H0]; · iexact H0
      isplitl [H1]; · iexact H1
      isplitl [H2]; · iexact H2
      isplitl [H3]; · iexact H3
      isplitl [H4]; · iexact H4
      isplitl [H5]; · iexact H5
      iexact H6

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Gen
end
-- ==== Proof.RegionRun.lean ====
/-
  The frame run of the one region: with the proof data and the body obligation at every point, every weakly fair execution of
  @main terminates with each array of the pipeline at what the write-backs leave in it and every other unscoped buffer as
  the region found it; read at the six argument arrays that is the frame claim.
-/
import proofs.«131990_g28389733826938_cont_9to1_253_4_alg».proof.Proof.PointBody
set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
theorem run_main : θ_run defs (onTc (τ := τ) (main (F := F))) (s₀ m ρ) (Pipeline.FramePost cfgs (dats m) 0 (V m)) :=
  Pipeline.θ_run_frame_track cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The program runs to the end, faults nowhere and leaves its six argument arrays as launched, at any float instance. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  frame_of m ρ (dats m) (A_eq m) (run_main m ρ)

end Cert.KernelIdeal.Gen
end
-- ==== Proof.Spec.lean ====
/-
  The two-layer graph convolution, entry by entry over the extended reals:

      hidden = lrelu(adj · (x · W1) + b1),     out = lrelu(adj · (hidden · W2) + b2),

  lrelu(v) = v where v ≥ 0 and 0.01·v elsewhere, the slope being the f32 word both programs carry (never evaluated:
  it is the same word on both sides). Matrix products are plain sums over the contracted axis; a bias row is added to
  every row.
-/
import Idealize.ShloMosaic.PureOps.Ideal
import Idealize.ShloMosaic.Lib.ValueIdx

noncomputable section

open scoped BigOperators

namespace Cert.Gcn

open Idealize.ShloMosaic Idealize.ShloMosaic.ValueIdx

/-- An n × k matrix of extended reals, indexed as the programs index a rank-2 array. -/
abbrev Mat (n k : ℕ) : Type := (⟨2, ![n, k]⟩ : Shape).Idx → Ideal .f32
/-- A row of n extended reals. -/
abbrev Row (n : ℕ) : Type := (⟨1, ![n]⟩ : Shape).Idx → Ideal .f32

/-- Entry (r, j) of the product A · B. -/
def mmAt {n k p : ℕ} (A : Mat n k) (B : Mat k p) (r : Fin n) (j : Fin p) : Ideal .f32 :=
  ∑ q : Fin k, A (ix2 r q) * B (ix2 q j)

/-- The product A · B. -/
def mm {n k p : ℕ} (A : Mat n k) (B : Mat k p) : Mat n p := fun i => mmAt A B (i 0) (i 1)

/-- Leaky rectification with the programs' slope word. -/
def lrelu (v : Ideal .f32) : Ideal .f32 :=
  Scalar.select (FloatOps.cmpf .oge v (Ideal.ofBits .f32 0x00000000#32)) v (Ideal.ofBits .f32 0x3C23D70A#32 * v)

/-- Entry (r, j) of one graph-convolution layer over rows A of the adjacency: lrelu((A · s)(r, j) + b(j)). -/
def layerAt {n k p : ℕ} (A : Mat n k) (s : Mat k p) (b : Row p) (r : Fin n) (j : Fin p) : Ideal .f32 :=
  lrelu (mmAt A s r j + b (ix1 j))

/-- One layer: lrelu(A · s + b). -/
def layer {n k p : ℕ} (A : Mat n k) (s : Mat k p) (b : Row p) : Mat n p := fun i => layerAt A s b (i 0) (i 1)

/-- The hidden layer. -/
def hidden (x : Mat 8192 128) (adj : Mat 8192 8192) (W1 : Mat 128 32) (b1 : Row 32) : Mat 8192 32 :=
  layer adj (mm x W1) b1

/-- The result. -/
def out (x : Mat 8192 128) (adj : Mat 8192 8192) (W1 : Mat 128 32) (b1 : Row 32) (W2 : Mat 32 32) (b2 : Row 32) : Mat 8192 32 :=
  layer adj (mm (hidden x adj W1 b1) W2) b2

theorem mm_apply {n k p : ℕ} (A : Mat n k) (B : Mat k p) (r : Fin n) (j : Fin p) : mm A B (ix2 r j) = mmAt A B r j := rfl
theorem layer_apply {n k p : ℕ} (A : Mat n k) (s : Mat k p) (b : Row p) (r : Fin n) (j : Fin p) :
    layer A s b (ix2 r j) = layerAt A s b r j := rfl

/-- A layer's rows depend only on the matching rows of the adjacency: if block rows `A'` are rows o … of `A`, the layer
    over `A'` at local row r is the layer over `A` at row o + r. -/
theorem layerAt_rows {n n' k p : ℕ} (A : Mat n k) (A' : Mat n' k) (s : Mat k p) (b : Row p) (r' : Fin n') (r : Fin n) (j : Fin p)
    (h : ∀ q : Fin k, A' (ix2 r' q) = A (ix2 r q)) : layerAt A' s b r' j = layerAt A s b r j := by
  unfold layerAt mmAt
  simp only [h]

end Cert.Gcn

end
-- ==== Proof.Blocks.lean ====
/-
  Each window's block at a grid point, read off the argument arrays as the launch memory holds them: the five windows with
  a constant index map stage their whole array at every point (the two bias rows through the host's reshape of a
  32-vector to a 1 × 32 row); the adjacency window's block at point t is rows 512·(t mod 16) … of the adjacency.
-/
import proofs.«131990_g28389733826938_cont_9to1_253_4_alg».proof.Proof.CarriedState
import proofs.«131990_g28389733826938_cont_9to1_253_4_alg».proof.Proof.Spec
import Idealize.ShloMosaic.Lib.Pipeline.Value
import Idealize.ShloMosaic.Lib.StableHlo.Run
set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Facts₀ Cert.Gcn
variable (m : (ℓ : Loc nD τ sig) → Buf (Elt Ideal) ℓ)

/-- The argument arrays on core c, at the specification's types. -/
abbrev X (c : Dev nD) : Mat 8192 128 := m ((c.tc : Thread nD τ).loc main_arg0)
abbrev ADJ (c : Dev nD) : Mat 8192 8192 := m ((c.tc : Thread nD τ).loc main_arg1)
abbrev W1 (c : Dev nD) : Mat 128 32 := m ((c.tc : Thread nD τ).loc main_arg2)
abbrev B1 (c : Dev nD) : Row 32 := m ((c.tc : Thread nD τ).loc main_arg3)
abbrev W2 (c : Dev nD) : Mat 32 32 := m ((c.tc : Thread nD τ).loc main_arg4)
abbrev B2 (c : Dev nD) : Row 32 := m ((c.tc : Thread nD τ).loc main_arg5)

/-- Windows 0 to 4 have a constant index map: block (0, 0) at every grid point. -/
theorem index_const : ∀ t : Fin cfg0.N,
    (win0_0.index t (0 : Fin 2) = 0 ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0) :=
  (by decide +kernel : ∀ t : Fin grid0.N, _)

/-- The adjacency window's block at point t is block (t mod 16, 0): the second grid coordinate picks the band of rows. -/
theorem index_adj : ∀ t : Fin cfg0.N, win0_5.index t (0 : Fin 2) = t.val % 16 ∧ win0_5.index t (1 : Fin 2) = 0 :=
  (by decide +kernel : ∀ t : Fin grid0.N, _)

/-- The first bias as the region finds it: the host's reshape of the 32-vector to a 1 × 32 row. -/
theorem V_bias1 (c : Dev nD) : (V m c main_v0 : S1x32.Idx → Ideal .f32) = shapeCast S1x32 (m ((c.tc : Thread nD τ).loc main_arg3)) Gen.shapeCasts_S32_S1x32 := by
  dsimp only [Gen.V, Gen.hostOps0]; after_results; rfl

/-- The second bias as the region finds it: the host's reshape of the 32-vector to a 1 × 32 row. -/
theorem V_bias2 (c : Dev nD) : (V m c main_v1 : S1x32.Idx → Ideal .f32) = shapeCast S1x32 (m ((c.tc : Thread nD τ).loc main_arg5)) Gen.shapeCasts_S32_S1x32 := by
  dsimp only [Gen.V, Gen.hostOps0]; after_results; rfl

/-- A 32-vector reshaped to a 1 × 32 row reads, at (0, j), the vector at j: both have row-major position j. -/
theorem row_of_vec (v : S32.Idx → Ideal .f32) (h : S32.ShapeCasts S1x32) (j : Fin 32) : shapeCast S1x32 v h (ix2 (0 : Fin 1) j) = v (ix1 j) := by
  refine shapeCast_apply v h (ix2 (0 : Fin 1) j) (ix1 j) ?_
  rw [Shape.rowMajor_val_one, Shape.rowMajor_val_two]
  show j.val = (0 : Fin 1).val * 32 + j.val
  simp

theorem blk0 (c : Dev nD) (t : Fin cfg0.N) : (iblk m c 0 t : S8192x128.Idx → Ideal .f32) = X m c := by
  obtain ⟨⟨e0, e1⟩, -⟩ := index_const t
  unfold iblk
  funext y
  rw [View.read_apply]
  show V m c main_arg0 (((cfg0.win 0).blk t).view.emb y) = m ((c.tc : Thread nD τ).loc main_arg0) y
  rw [V_main_arg0]
  refine congrArg (m ((c.tc : Thread nD τ).loc main_arg0)) ?_
  funext a
  apply Fin.ext
  match a with
  | ⟨0, _⟩ => show win0_0.index t (0 : Fin 2) * 8192 + 1 * (y 0).val = (y 0).val; omega
  | ⟨1, _⟩ => show win0_0.index t (1 : Fin 2) * 128 + 1 * (y 1).val = (y 1).val; omega
theorem blk1 (c : Dev nD) (t : Fin cfg0.N) : (iblk m c 1 t : S128x32.Idx → Ideal .f32) = W1 m c := by
  obtain ⟨-, ⟨e0, e1⟩, -⟩ := index_const t
  unfold iblk
  funext y
  rw [View.read_apply]
  show V m c main_arg2 (((cfg0.win 1).blk t).view.emb y) = m ((c.tc : Thread nD τ).loc main_arg2) y
  rw [V_main_arg2]
  refine congrArg (m ((c.tc : Thread nD τ).loc main_arg2)) ?_
  funext a
  apply Fin.ext
  match a with
  | ⟨0, _⟩ => show win0_1.index t (0 : Fin 2) * 128 + 1 * (y 0).val = (y 0).val; omega
  | ⟨1, _⟩ => show win0_1.index t (1 : Fin 2) * 32 + 1 * (y 1).val = (y 1).val; omega
theorem blk2 (c : Dev nD) (t : Fin cfg0.N) (j : Fin 32) :
    (iblk m c 2 t : S1x32.Idx → Ideal .f32) (ix2 (0 : Fin 1) j) = B1 m c (ix1 j) := by
  obtain ⟨-, -, ⟨e0, e1⟩, -⟩ := index_const t
  unfold iblk
  rw [View.read_apply]
  show V m c main_v0 (((cfg0.win 2).blk t).view.emb (ix2 (0 : Fin 1) j)) = m ((c.tc : Thread nD τ).loc main_arg3) (ix1 j)
  have hpos : ((cfg0.win 2).blk t).view.emb (ix2 (0 : Fin 1) j) = (ix2 (0 : Fin 1) j : S1x32.Idx) := by
    funext a
    apply Fin.ext
    match a with
    | ⟨0, _⟩ => show win0_2.index t (0 : Fin 2) * 1 + 1 * (0 : Fin 1).val = (0 : Fin 1).val; omega
    | ⟨1, _⟩ => show win0_2.index t (1 : Fin 2) * 32 + 1 * j.val = j.val; omega
  rw [hpos, V_bias1, row_of_vec]
theorem blk3 (c : Dev nD) (t : Fin cfg0.N) : (iblk m c 3 t : S32x32.Idx → Ideal .f32) = W2 m c := by
  obtain ⟨-, -, -, ⟨e0, e1⟩, -⟩ := index_const t
  unfold iblk
  funext y
  rw [View.read_apply]
  show V m c main_arg4 (((cfg0.win 3).blk t).view.emb y) = m ((c.tc : Thread nD τ).loc main_arg4) y
  rw [V_main_arg4]
  refine congrArg (m ((c.tc : Thread nD τ).loc main_arg4)) ?_
  funext a
  apply Fin.ext
  match a with
  | ⟨0, _⟩ => show win0_3.index t (0 : Fin 2) * 32 + 1 * (y 0).val = (y 0).val; omega
  | ⟨1, _⟩ => show win0_3.index t (1 : Fin 2) * 32 + 1 * (y 1).val = (y 1).val; omega
theorem blk4 (c : Dev nD) (t : Fin cfg0.N) (j : Fin 32) :
    (iblk m c 4 t : S1x32.Idx → Ideal .f32) (ix2 (0 : Fin 1) j) = B2 m c (ix1 j) := by
  obtain ⟨-, -, -, -, ⟨e0, e1⟩⟩ := index_const t
  unfold iblk
  rw [View.read_apply]
  show V m c main_v1 (((cfg0.win 4).blk t).view.emb (ix2 (0 : Fin 1) j)) = m ((c.tc : Thread nD τ).loc main_arg5) (ix1 j)
  have hpos : ((cfg0.win 4).blk t).view.emb (ix2 (0 : Fin 1) j) = (ix2 (0 : Fin 1) j : S1x32.Idx) := by
    funext a
    apply Fin.ext
    match a with
    | ⟨0, _⟩ => show win0_4.index t (0 : Fin 2) * 1 + 1 * (0 : Fin 1).val = (0 : Fin 1).val; omega
    | ⟨1, _⟩ => show win0_4.index t (1 : Fin 2) * 32 + 1 * j.val = j.val; omega
  rw [hpos, V_bias2, row_of_vec]
theorem blk5 (c : Dev nD) (t : Fin cfg0.N) (r : Fin 512) (q : Fin 8192) (R : Fin 8192) (hR : R.val = 512 * (t.val % 16) + r.val) :
    (iblk m c 5 t : S512x8192.Idx → Ideal .f32) (ix2 r q) = ADJ m c (ix2 R q) := by
  obtain ⟨e0, e1⟩ := index_adj t
  unfold iblk
  rw [View.read_apply]
  show V m c main_arg1 (((cfg0.win 5).blk t).view.emb (ix2 r q)) = m ((c.tc : Thread nD τ).loc main_arg1) (ix2 R q)
  rw [V_main_arg1]
  refine congrArg (m ((c.tc : Thread nD τ).loc main_arg1)) ?_
  funext a
  apply Fin.ext
  match a with
  | ⟨0, _⟩ => show win0_5.index t (0 : Fin 2) * 512 + 1 * r.val = R.val; omega
  | ⟨1, _⟩ => show win0_5.index t (1 : Fin 2) * 8192 + 1 * q.val = q.val; omega

end Cert.KernelIdeal.KValue
end
-- ==== Proof.PayloadValue.lean ====
/-
  The kernel body's four payloads at the ideal instance, entry by entry: the format changes are the identity, a matrix
  unit product into the zero accumulator is the plain sum over the contracted axis, and bias add, compare, scale and
  select are the specification's `lrelu` of the sum plus the layer's bias entry.
-/
import proofs.«131990_g28389733826938_cont_9to1_253_4_alg».proof.Proof.Gen.KernelIdeal.Skeleton
import proofs.«131990_g28389733826938_cont_9to1_253_4_alg».proof.Proof.Spec
import Idealize.ShloMosaic.PureOps.Ideal.Laws
import Idealize.ShloMosaic.Lib.Pipeline.Value
import Idealize.ShloMosaic.Lib.ValueLayout
set_option maxRecDepth 16384

noncomputable section

open scoped BigOperators

namespace Cert.KernelIdeal.PayValue

open Idealize.ShloMosaic Idealize.ShloMosaic.TcCoe Idealize.SL.Sem Idealize.ShloMosaic.ValueIdx
open Cert.KernelIdeal Cert.KernelIdeal.Gen Cert.KernelIdeal.Facts₀
/-! ## The operand indices of the three products

Each product contracts the left operand's columns against the right operand's rows: at output entry (r, j) and
contracted position q the left operand is read at (r, q) and the right one at (q, j). One fact per operand axis. -/

/-- The left operand's index of the product `xw`: its row is the output's row. -/
theorem lhs_xw_0 (i : S8192x32.Idx) (q : dot_S8192x128_S128x32_S8192x32_1_0_0_1_n_n.contr.Idx) :
    (dot_S8192x128_S128x32_S8192x32_1_0_0_1_n_n.lhsIdx i q 0).val = (i 0).val := by
  unfold DotDims.lhsIdx
  rw [dif_neg (show ¬(0 : Fin S8192x128.rank) ∈ dot_S8192x128_S128x32_S8192x32_1_0_0_1_n_n.lhsBatch by decide), dif_pos (show (0 : Fin S8192x128.rank) ∈ dot_S8192x128_S128x32_S8192x32_1_0_0_1_n_n.lhsNonContracting by decide)]
  rfl
/-- Its column is the contracted position. -/
theorem lhs_xw_1 (i : S8192x32.Idx) (q : dot_S8192x128_S128x32_S8192x32_1_0_0_1_n_n.contr.Idx) :
    (dot_S8192x128_S128x32_S8192x32_1_0_0_1_n_n.lhsIdx i q 1).val = (q ⟨0, by decide⟩).val :=
  dot_S8192x128_S128x32_S8192x32_1_0_0_1_n_n.lhsIdx_val_of_single rfl i q
/-- The right operand's index of the product `xw`: its row is the contracted position. -/
theorem rhs_xw_0 (i : S8192x32.Idx) (q : dot_S8192x128_S128x32_S8192x32_1_0_0_1_n_n.contr.Idx) :
    (dot_S8192x128_S128x32_S8192x32_1_0_0_1_n_n.rhsIdx i q 0).val = (q ⟨0, by decide⟩).val :=
  dot_S8192x128_S128x32_S8192x32_1_0_0_1_n_n.rhsIdx_val_of_single rfl i q
/-- Its column is the output's column. -/
theorem rhs_xw_1 (i : S8192x32.Idx) (q : dot_S8192x128_S128x32_S8192x32_1_0_0_1_n_n.contr.Idx) :
    (dot_S8192x128_S128x32_S8192x32_1_0_0_1_n_n.rhsIdx i q 1).val = (i 1).val := by
  unfold DotDims.rhsIdx
  rw [dif_neg (show ¬(1 : Fin S128x32.rank) ∈ dot_S8192x128_S128x32_S8192x32_1_0_0_1_n_n.rhsBatch by decide), dif_pos (show (1 : Fin S128x32.rank) ∈ dot_S8192x128_S128x32_S8192x32_1_0_0_1_n_n.rhsNonContracting by decide)]
  rfl

/-- The left operand's index of the product `hw`: its row is the output's row. -/
theorem lhs_hw_0 (i : S8192x32.Idx) (q : dot_S8192x32_S32x32_S8192x32_1_0_0_1_n_n.contr.Idx) :
    (dot_S8192x32_S32x32_S8192x32_1_0_0_1_n_n.lhsIdx i q 0).val = (i 0).val := by
  unfold DotDims.lhsIdx
  rw [dif_neg (show ¬(0 : Fin S8192x32.rank) ∈ dot_S8192x32_S32x32_S8192x32_1_0_0_1_n_n.lhsBatch by decide), dif_pos (show (0 : Fin S8192x32.rank) ∈ dot_S8192x32_S32x32_S8192x32_1_0_0_1_n_n.lhsNonContracting by decide)]
  rfl
/-- Its column is the contracted position. -/
theorem lhs_hw_1 (i : S8192x32.Idx) (q : dot_S8192x32_S32x32_S8192x32_1_0_0_1_n_n.contr.Idx) :
    (dot_S8192x32_S32x32_S8192x32_1_0_0_1_n_n.lhsIdx i q 1).val = (q ⟨0, by decide⟩).val :=
  dot_S8192x32_S32x32_S8192x32_1_0_0_1_n_n.lhsIdx_val_of_single rfl i q
/-- The right operand's index of the product `hw`: its row is the contracted position. -/
theorem rhs_hw_0 (i : S8192x32.Idx) (q : dot_S8192x32_S32x32_S8192x32_1_0_0_1_n_n.contr.Idx) :
    (dot_S8192x32_S32x32_S8192x32_1_0_0_1_n_n.rhsIdx i q 0).val = (q ⟨0, by decide⟩).val :=
  dot_S8192x32_S32x32_S8192x32_1_0_0_1_n_n.rhsIdx_val_of_single rfl i q
/-- Its column is the output's column. -/
theorem rhs_hw_1 (i : S8192x32.Idx) (q : dot_S8192x32_S32x32_S8192x32_1_0_0_1_n_n.contr.Idx) :
    (dot_S8192x32_S32x32_S8192x32_1_0_0_1_n_n.rhsIdx i q 1).val = (i 1).val := by
  unfold DotDims.rhsIdx
  rw [dif_neg (show ¬(1 : Fin S32x32.rank) ∈ dot_S8192x32_S32x32_S8192x32_1_0_0_1_n_n.rhsBatch by decide), dif_pos (show (1 : Fin S32x32.rank) ∈ dot_S8192x32_S32x32_S8192x32_1_0_0_1_n_n.rhsNonContracting by decide)]
  rfl

/-- The left operand's index of the product `as`: its row is the output's row. -/
theorem lhs_as_0 (i : S512x32.Idx) (q : dot_S512x8192_S8192x32_S512x32_1_0_0_1_n_n.contr.Idx) :
    (dot_S512x8192_S8192x32_S512x32_1_0_0_1_n_n.lhsIdx i q 0).val = (i 0).val := by
  unfold DotDims.lhsIdx
  rw [dif_neg (show ¬(0 : Fin S512x8192.rank) ∈ dot_S512x8192_S8192x32_S512x32_1_0_0_1_n_n.lhsBatch by decide), dif_pos (show (0 : Fin S512x8192.rank) ∈ dot_S512x8192_S8192x32_S512x32_1_0_0_1_n_n.lhsNonContracting by decide)]
  rfl
/-- Its column is the contracted position. -/
theorem lhs_as_1 (i : S512x32.Idx) (q : dot_S512x8192_S8192x32_S512x32_1_0_0_1_n_n.contr.Idx) :
    (dot_S512x8192_S8192x32_S512x32_1_0_0_1_n_n.lhsIdx i q 1).val = (q ⟨0, by decide⟩).val :=
  dot_S512x8192_S8192x32_S512x32_1_0_0_1_n_n.lhsIdx_val_of_single rfl i q
/-- The right operand's index of the product `as`: its row is the contracted position. -/
theorem rhs_as_0 (i : S512x32.Idx) (q : dot_S512x8192_S8192x32_S512x32_1_0_0_1_n_n.contr.Idx) :
    (dot_S512x8192_S8192x32_S512x32_1_0_0_1_n_n.rhsIdx i q 0).val = (q ⟨0, by decide⟩).val :=
  dot_S512x8192_S8192x32_S512x32_1_0_0_1_n_n.rhsIdx_val_of_single rfl i q
/-- Its column is the output's column. -/
theorem rhs_as_1 (i : S512x32.Idx) (q : dot_S512x8192_S8192x32_S512x32_1_0_0_1_n_n.contr.Idx) :
    (dot_S512x8192_S8192x32_S512x32_1_0_0_1_n_n.rhsIdx i q 1).val = (i 1).val := by
  unfold DotDims.rhsIdx
  rw [dif_neg (show ¬(1 : Fin S8192x32.rank) ∈ dot_S512x8192_S8192x32_S512x32_1_0_0_1_n_n.rhsBatch by decide), dif_pos (show (1 : Fin S8192x32.rank) ∈ dot_S512x8192_S8192x32_S512x32_1_0_0_1_n_n.rhsNonContracting by decide)]
  rfl

/-! ## The adjacency block times the support, and the selected bias row -/

/-- The product of an adjacency block (its format change the identity) and the support, into the zero accumulator,
    is the sum over the 8192 contracted positions. -/
theorem adj_support_apply (a : Vec Ideal S512x8192 .f32) (s : Vec Ideal S8192x32 .bf16) (hlt : FTy.bf16.bits < FTy.f32.bits)
    (r : Fin 512) (j : Fin 32) :
    matmul (φ₂ := .bf16) dot_S512x8192_S8192x32_S512x32_1_0_0_1_n_n none (truncf .bf16 a hlt) s (constant (F := Ideal) S512x32 .f32 0x00000000#32) (ix2 r j)
      = Cert.Gcn.mmAt a s r j := by
  refine (Ideal.matmul_constant_zero_apply (φ₁ := .bf16) (φ₂ := .bf16) _ none _ _ _).trans ?_
  rw [← Equiv.sum_comp (contrEquiv1 dot_S512x8192_S8192x32_S512x32_1_0_0_1_n_n 8192 rfl rfl).symm]
  unfold Cert.Gcn.mmAt
  refine Finset.sum_congr rfl fun k _ => ?_
  have hk := contrEquiv1_symm_val dot_S512x8192_S8192x32_S512x32_1_0_0_1_n_n 8192 rfl rfl k
  have el : dot_S512x8192_S8192x32_S512x32_1_0_0_1_n_n.lhsIdx (ix2 r j) ((contrEquiv1 dot_S512x8192_S8192x32_S512x32_1_0_0_1_n_n 8192 rfl rfl).symm k) = ix2 r k :=
    funext fun a => Fin.ext (by
      match a with
      | ⟨0, _⟩ => exact lhs_as_0 _ _
      | ⟨1, _⟩ => exact (lhs_as_1 _ _).trans hk)
  have er : dot_S512x8192_S8192x32_S512x32_1_0_0_1_n_n.rhsIdx (ix2 r j) ((contrEquiv1 dot_S512x8192_S8192x32_S512x32_1_0_0_1_n_n 8192 rfl rfl).symm k) = ix2 k j :=
    funext fun a => Fin.ext (by
      match a with
      | ⟨0, _⟩ => exact (rhs_as_0 _ _).trans hk
      | ⟨1, _⟩ => exact rhs_as_1 _ _)
  rw [el, er]
  rfl

/-- The bias block: every row of it is the one row of the layer's bias, the first layer's where the layer coordinate
    is 0 and the second's where it is 1. -/
theorem bias_row_apply (i : grid0.Coords) (bA bB : Vec Ideal S1x32 .f32) (hb : S1x32.Broadcasts S512x32) (r : Fin 512) (j : Fin 32) :
    broadcastTo S512x32 (Scalar.select (Scalar.cmpi .eq (BitVec.ofNat 32 (i 0).val) 0#32) bA bB) hb (ix2 r j)
      = if (i 0).val = 0 then bA (ix2 (0 : Fin 1) j) else bB (ix2 (0 : Fin 1) j) := by
  rw [broadcastTo_apply _ _ _ (ix2 (0 : Fin 1) j) (fun a => by
    match a with
    | ⟨0, _⟩ => rfl
    | ⟨1, _⟩ => rfl)]
  have h2 : (i 0).val < 2 := (i 0).isLt
  show Scalar.select (IntOp.cmpi .eq (BitVec.ofNat 32 (i 0).val) 0#32) bA bB (ix2 (0 : Fin 1) j) = _
  rw [select_eq0 _ h2]
  split <;> rfl

/-- x·W1. -/
theorem pay1_apply (x : Vec Ideal S8192x128 .f32) (w : Vec Ideal S128x32 .f32) (r : Fin 8192) (j : Fin 32) :
    k0_pay1 (F := Ideal) x w (ix2 r j) = Cert.Gcn.mmAt x w r j := by
  unfold k0_pay1
  rw [shapeCast_self, truncf_apply]
  refine (Ideal.matmul_constant_zero_apply (φ₁ := .bf16) (φ₂ := .bf16) _ none _ _ _).trans ?_
  rw [← Equiv.sum_comp (contrEquiv1 dot_S8192x128_S128x32_S8192x32_1_0_0_1_n_n 128 rfl rfl).symm]
  unfold Cert.Gcn.mmAt
  refine Finset.sum_congr rfl fun k _ => ?_
  have hk := contrEquiv1_symm_val dot_S8192x128_S128x32_S8192x32_1_0_0_1_n_n 128 rfl rfl k
  have el : dot_S8192x128_S128x32_S8192x32_1_0_0_1_n_n.lhsIdx (ix2 r j) ((contrEquiv1 dot_S8192x128_S128x32_S8192x32_1_0_0_1_n_n 128 rfl rfl).symm k) = ix2 r k :=
    funext fun a => Fin.ext (by
      match a with
      | ⟨0, _⟩ => exact lhs_xw_0 _ _
      | ⟨1, _⟩ => exact (lhs_xw_1 _ _).trans hk)
  have er : dot_S8192x128_S128x32_S8192x32_1_0_0_1_n_n.rhsIdx (ix2 r j) ((contrEquiv1 dot_S8192x128_S128x32_S8192x32_1_0_0_1_n_n 128 rfl rfl).symm k) = ix2 k j :=
    funext fun a => Fin.ext (by
      match a with
      | ⟨0, _⟩ => exact (rhs_xw_0 _ _).trans hk
      | ⟨1, _⟩ => exact rhs_xw_1 _ _)
  rw [el, er]
  rfl

/-- hidden·W2. -/
theorem pay2_apply (h : Vec Ideal S8192x32 .f32) (w : Vec Ideal S32x32 .f32) (r : Fin 8192) (j : Fin 32) :
    k0_pay2 (F := Ideal) h w (ix2 r j) = Cert.Gcn.mmAt h w r j := by
  unfold k0_pay2
  rw [shapeCast_self, truncf_apply]
  refine (Ideal.matmul_constant_zero_apply (φ₁ := .bf16) (φ₂ := .bf16) _ none _ _ _).trans ?_
  rw [← Equiv.sum_comp (contrEquiv1 dot_S8192x32_S32x32_S8192x32_1_0_0_1_n_n 32 rfl rfl).symm]
  unfold Cert.Gcn.mmAt
  refine Finset.sum_congr rfl fun k _ => ?_
  have hk := contrEquiv1_symm_val dot_S8192x32_S32x32_S8192x32_1_0_0_1_n_n 32 rfl rfl k
  have el : dot_S8192x32_S32x32_S8192x32_1_0_0_1_n_n.lhsIdx (ix2 r j) ((contrEquiv1 dot_S8192x32_S32x32_S8192x32_1_0_0_1_n_n 32 rfl rfl).symm k) = ix2 r k :=
    funext fun a => Fin.ext (by
      match a with
      | ⟨0, _⟩ => exact lhs_hw_0 _ _
      | ⟨1, _⟩ => exact (lhs_hw_1 _ _).trans hk)
  have er : dot_S8192x32_S32x32_S8192x32_1_0_0_1_n_n.rhsIdx (ix2 r j) ((contrEquiv1 dot_S8192x32_S32x32_S8192x32_1_0_0_1_n_n 32 rfl rfl).symm k) = ix2 k j :=
    funext fun a => Fin.ext (by
      match a with
      | ⟨0, _⟩ => exact (rhs_hw_0 _ _).trans hk
      | ⟨1, _⟩ => exact rhs_hw_1 _ _)
  rw [el, er]
  rfl

/-- One block of a layer: lrelu(adj_block · support + bias row), the bias row the first layer's at l = 0 and the second's at l = 1. -/
theorem pay3_apply (i : grid0.Coords) (a : Vec Ideal S512x8192 .f32) (s : Vec Ideal S8192x32 .bf16) (bA bB : Vec Ideal S1x32 .f32)
    (r : Fin 512) (j : Fin 32) :
    k0_pay3 (F := Ideal) i a s bA bB (ix2 r j)
      = Cert.Gcn.lrelu (Cert.Gcn.mmAt a s r j + (if (i 0).val = 0 then bA (ix2 (0 : Fin 1) j) else bB (ix2 (0 : Fin 1) j))) := by
  unfold k0_pay3
  rw [select_apply, cmpf_apply, mulf_apply, addf_apply, broadcast_apply, broadcast_apply, shapeCast_self, shapeCast_self,
    adj_support_apply, bias_row_apply]
  rfl

/-- The hidden layer's stored block is the same value (a shape cast to its own shape). -/
theorem pay4_eq {F : FTy → Type} [FloatOps F] (i : grid0.Coords) (a : Vec F S512x8192 .f32) (s : Vec F S8192x32 .bf16) (bA bB : Vec F S1x32 .f32) :
    k0_pay4 i a s bA bB = k0_pay3 i a s bA bB := by
  unfold k0_pay4
  exact shapeCast_self _ _

end Cert.KernelIdeal.PayValue
end
-- ==== Proof.KernelValue.lean ====
/-
  The kernel's result array. At a point t of layer 1 the result window's buffer holds rows 512·(t − 16) … of the
  specification's `out`: the support scratch then holds hidden·W2, the hidden layer being the sixteen blocks layer 0
  stored, each lrelu(adj_block · (x·W1) + b1) — row 512·j + r of the adjacency against x·W1 — and the body adds b2 and
  rectifies. Every point of layer 1 writes its block back, block t − 16 of the array, and the sixteen blocks tile it.
-/
import proofs.«131990_g28389733826938_cont_9to1_253_4_alg».proof.Proof.Blocks
import proofs.«131990_g28389733826938_cont_9to1_253_4_alg».proof.Proof.PayloadValue
set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Facts₀ Cert.Gcn Idealize.ShloMosaic.Pipeline
variable (m : (ℓ : Loc nD τ sig) → Buf (Elt Ideal) ℓ)

/-- The layer coordinate of a grid point: 0 through the first sixteen points, 1 from the sixteenth on. -/
theorem layerCoord_hid : ∀ t : Fin cfg0.N, t.val < 16 → (grid0.coords t 0).val = 0 :=
  (by decide +kernel : ∀ t : Fin grid0.N, t.val < 16 → (grid0.coords t 0).val = 0)
theorem layerCoord_out : ∀ t : Fin cfg0.N, 16 ≤ t.val → (grid0.coords t 0).val = 1 :=
  (by decide +kernel : ∀ t : Fin grid0.N, 16 ≤ t.val → (grid0.coords t 0).val = 1)

/-- The support matrix of layer 0 is x·W1. -/
theorem featT_eq (c : Dev nD) : (featT (F := Ideal) m c : S8192x32.Idx → Ideal .f32) = mm (X m c) (W1 m c) := by
  funext idx
  obtain ⟨r, j, rfl⟩ : ∃ (r : Fin 8192) (j : Fin 32), idx = ix2 r j := ⟨idx 0, idx 1, eq_ix2 idx⟩
  unfold featT
  rw [PayValue.pay1_apply, blk0, blk1]
  rfl

/-- Block b of the hidden layer, entry by entry: local row r of the block is row 512·b + r of the hidden layer. -/
theorem hidBlk_apply (c : Dev nD) (b : ℕ) (hb : b < 16) (r : Fin 512) (j : Fin 32) (R : Fin 8192)
    (hR : R.val = 512 * b + r.val) :
    hidBlk (F := Ideal) m c b hb (ix2 r j) = hidden (X m c) (ADJ m c) (W1 m c) (B1 m c) (ix2 R j) := by
  unfold hidBlk
  rw [PayValue.pay4_eq, PayValue.pay3_apply, if_pos (layerCoord_hid (pt b (by omega)) (by rw [pt_val]; exact hb)), blk2, featT_eq]
  show layerAt _ (mm (X m c) (W1 m c)) (B1 m c) r j = layerAt (ADJ m c) (mm (X m c) (W1 m c)) (B1 m c) R j
  refine layerAt_rows _ _ _ _ r R j fun q => ?_
  exact blk5 m c (pt b (by omega)) r q R (by rw [pt_val, Nat.mod_eq_of_lt hb]; exact hR)

/-- The sixteen blocks together are the hidden layer. -/
theorem hidAll_eq (c : Dev nD) : (hidAll (F := Ideal) m c : S8192x32.Idx → Ideal .f32) = hidden (X m c) (ADJ m c) (W1 m c) (B1 m c) := by
  funext idx
  have h0 := idx2_lt0 idx
  unfold hidAll
  refine (hidBlk_apply m c _ _ _ _ (idx 0) ?_).trans ?_
  · show (idx 0).val = 512 * ((idx 0).val / 512) + (idx 0).val % 512
    omega
  · exact congrArg _ (eq_ix2 idx).symm

/-- The support matrix of layer 1 is hidden·W2. -/
theorem featT2_eq (c : Dev nD) :
    (featT2 (F := Ideal) m c : S8192x32.Idx → Ideal .f32) = mm (hidden (X m c) (ADJ m c) (W1 m c) (B1 m c)) (W2 m c) := by
  funext idx
  obtain ⟨r, j, rfl⟩ : ∃ (r : Fin 8192) (j : Fin 32), idx = ix2 r j := ⟨idx 0, idx 1, eq_ix2 idx⟩
  unfold featT2
  rw [PayValue.pay2_apply, hidAll_eq, blk3]
  rfl

/-- What a point of layer 1 leaves in the result window's buffer, entry by entry. -/
theorem outBlk_apply (c : Dev nD) (t : Fin cfg0.N) (ht : 16 ≤ t.val) (r : Fin 512) (j : Fin 32) (R : Fin 8192)
    (hR : R.val = 512 * (t.val - 16) + r.val) :
    outBlk (F := Ideal) m c t (ix2 r j) = out (X m c) (ADJ m c) (W1 m c) (B1 m c) (W2 m c) (B2 m c) (ix2 R j) := by
  have hN : t.val < 32 := lt_of_lt_of_eq t.isLt (show cfg0.N = 32 from N_0)
  unfold outBlk
  rw [PayValue.pay3_apply, if_neg (by rw [layerCoord_out t ht]; decide), blk4, featT2_eq]
  show layerAt _ (mm (hidden (X m c) (ADJ m c) (W1 m c) (B1 m c)) (W2 m c)) (B2 m c) r j
      = layerAt (ADJ m c) (mm (hidden (X m c) (ADJ m c) (W1 m c) (B1 m c)) (W2 m c)) (B2 m c) R j
  refine layerAt_rows _ _ _ _ r R j fun q => ?_
  exact blk5 m c t r q R (by omega)

/-- The block index of the result window at a point of layer 1, axis by axis. -/
theorem outIndex0 (t : Fin cfg0.N) (ht : 16 ≤ t.val) : win0_6.index t (0 : Fin 2) = t.val - 16 := indexOut t ht 0
theorem outIndex1 (t : Fin cfg0.N) (ht : 16 ≤ t.val) : win0_6.index t (1 : Fin 2) = 0 := indexOut t ht 1

/-- What a point of layer 1 writes back is its block of the specification's result: rows 512·(t − 16) … -/
theorem flushedOut_eq (c : Dev nD) (t : Fin cfg0.N) (ht : 16 ≤ t.val) :
    (dats (F := Ideal) m 0 c).flushed 6 t
      = ((cfg0.win 6).blk t).view.read (Elt Ideal) (out (X m c) (ADJ m c) (W1 m c) (B1 m c) (W2 m c) (B2 m c)) := by
  show (cfg0.win 6).cut (grid0.coords t) ((dats m 0 c).after 6 t) = _
  rw [after6]
  funext y
  have hN : t.val < 32 := lt_of_lt_of_eq t.isLt (show cfg0.N = 32 from N_0)
  have hy0 : (y 0).val < 512 := (y 0).isLt
  have hy1 : (y 1).val < 32 := (y 1).isLt
  have e0 := outIndex0 t ht
  have e1 := outIndex1 t ht
  have hR : 512 * (t.val - 16) + (y 0).val < 8192 := by omega
  show outBlk m c t y = out (X m c) (ADJ m c) (W1 m c) (B1 m c) (W2 m c) (B2 m c) (((cfg0.win 6).blk t).view.emb y)
  have hemb : ((cfg0.win 6).blk t).view.emb y
      = ix2 (⟨512 * (t.val - 16) + (y 0).val, hR⟩ : Fin 8192) (⟨(y 1).val, hy1⟩ : Fin 32) := by
    funext a; apply Fin.ext
    match a with
    | ⟨0, _⟩ => show win0_6.index t (0 : Fin 2) * 512 + 1 * (y 0).val = 512 * (t.val - 16) + (y 0).val; omega
    | ⟨1, _⟩ => show win0_6.index t (1 : Fin 2) * 32 + 1 * (y 1).val = (y 1).val; omega
  have hyy : y = ix2 (⟨(y 0).val, hy0⟩ : Fin 512) (⟨(y 1).val, hy1⟩ : Fin 32) := by
    funext a
    match a with
    | ⟨0, _⟩ => rfl
    | ⟨1, _⟩ => rfl
  rw [hemb]
  refine (congrArg (outBlk m c t) hyy).trans ?_
  exact outBlk_apply m c t ht _ _ _ rfl

/-- An index of the result array is in point t's block iff each coordinate is in the block's range on its axis. -/
theorem mem_outBlk (t : Fin cfg0.N) (i : S8192x32.Idx) :
    i ∈ ((cfg0.win 6).blk t).view.set
      ↔ ∀ a : Fin 2, win0_6.index t a * S512x32.size a ≤ (i a).val ∧ (i a).val < win0_6.index t a * S512x32.size a + S512x32.size a := by
  show i ∈ ((View.whole main_v2).slice (win0_6.rect t)).set ↔ _
  rw [View.set_slice_whole, Rect.mem_set_unit]
  exact Iff.rfl

/-- Row R of the result array lies in the block written back at point 16 + R / 512. -/
theorem covered (i : S8192x32.Idx) :
    ∃ t : Fin cfg0.N, (cfg0.win 6).flush t = true ∧ i ∈ ((cfg0.win 6).blk t).view.set := by
  have hi0 : (i 0).val < 8192 := (i 0).isLt
  have hi1 : (i 1).val < 32 := (i 1).isLt
  have hp : 16 + (i 0).val / 512 < 32 := by omega
  have ht : 16 ≤ (pt (16 + (i 0).val / 512) hp).val := by rw [pt_val]; omega
  refine ⟨pt (16 + (i 0).val / 512) hp, flushOut _ ht, ?_⟩
  rw [mem_outBlk]
  have e0 := outIndex0 _ ht
  have e1 := outIndex1 _ ht
  rw [pt_val] at e0
  intro a
  match a with
  | ⟨0, _⟩ =>
    show win0_6.index (pt (16 + (i 0).val / 512) hp) (0 : Fin 2) * 512 ≤ (i 0).val
      ∧ (i 0).val < win0_6.index (pt (16 + (i 0).val / 512) hp) (0 : Fin 2) * 512 + 512
    omega
  | ⟨1, _⟩ =>
    show win0_6.index (pt (16 + (i 0).val / 512) hp) (1 : Fin 2) * 32 ≤ (i 1).val
      ∧ (i 1).val < win0_6.index (pt (16 + (i 0).val / 512) hp) (1 : Fin 2) * 32 + 32
    omega

/-- The result array after the region. -/
theorem final (c : Dev nD) :
    ((dats (F := Ideal) m 0 c).arrAt 6 cfg0.N : S8192x32.Idx → Ideal .f32) = out (X m c) (ADJ m c) (W1 m c) (B1 m c) (W2 m c) (B2 m c) := by
  refine (dats (F := Ideal) m 0 c).arrAt_eq_of_cover 6 (out (X m c) (ADJ m c) (W1 m c) (B1 m c) (W2 m c) (B2 m c))
    (fun t hf => flushedOut_eq m c t ?_) covered
  by_contra h
  have := noFlushOut t (by omega)
  rw [this] at hf
  exact Bool.false_ne_true hf

end Cert.KernelIdeal.KValue
end
-- ==== Proof.ResultRun.lean ====
/-
  The idealized kernel's run with its result named: the frame run's post has the result array at what the sixteen
  write-backs of layer 1 leave in it, which is the specification's `out` of the argument arrays (`final`); the
  arguments are read off the same post as in the frame claim.
-/
import proofs.«131990_g28389733826938_cont_9to1_253_4_alg».proof.Proof.RegionRun
import proofs.«131990_g28389733826938_cont_9to1_253_4_alg».proof.Proof.KernelValue
set_option maxRecDepth 16384

noncomputable section

open scoped BigOperators

namespace Cert.KernelIdeal.KValue

open Idealize.ShloMosaic Idealize.ShloMosaic.TcCoe Idealize.SL.Sem Idealize.ShloMosaic.ValueIdx
open Cert.KernelIdeal Cert.KernelIdeal.Gen Cert.KernelIdeal.Facts₀ Cert.Gcn Idealize.ShloMosaic.Pipeline
variable (m : (ℓ : Loc nD τ sig) → Buf (Elt Ideal) ℓ) (ρ : Dev nD → PrngReg)

theorem run_value : θ_run (defs (F := Ideal)) (onTc (τ := τ) (main (F := Ideal))) ⟨m, fun _ => 0, ρ⟩ (fun r => ∀ c : Dev nD,
      r.2.mem ((c.tc : Thread nD τ).loc main_v2) = out (X m c) (ADJ m c) (W1 m c) (B1 m c) (W2 m c) (B2 m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).1 6).trans (final m c),
      ((h c).1 0).trans (((dats m 0 c).arrAt_in 0 rfl _).trans ((A_eq m c 0).trans (V_main_arg0 m c))),
      ((h c).1 5).trans (((dats m 0 c).arrAt_in 5 rfl _).trans ((A_eq m c 5).trans (V_main_arg1 m c))),
      ((h c).1 1).trans (((dats m 0 c).arrAt_in 1 rfl _).trans ((A_eq m c 1).trans (V_main_arg2 m c))),
      ((h c).2 main_arg3 (Pipeline.mem_restRefs_of main_arg3 (by decide) (by decide))).trans (V_main_arg3 m c),
      ((h c).1 3).trans (((dats m 0 c).arrAt_in 3 rfl _).trans ((A_eq m c 3).trans (V_main_arg4 m c))),
      ((h c).2 main_arg5 (Pipeline.mem_restRefs_of main_arg5 (by decide) (by decide))).trans (V_main_arg5 m c)⟩)
    (run_main (F := Ideal) m ρ)

end Cert.KernelIdeal.KValue
end
-- ==== Proof.RefTerm.lean ====
/-
  The reference's result as one term of its arguments: what its fourteen host operations and its two calls of the outlined
  leaky_relu compose to — two graph-convolution layers, each a product with the support matrix, a product with the
  adjacency, the bias row broadcast and added, and the rectification select(v ≥ 0, v, slope·v).
-/
import proofs.«131990_g28389733826938_cont_9to1_253_4_alg».proof.ReferenceIdeal
import proofs.«131990_g28389733826938_cont_9to1_253_4_alg».proof.Proof.Gen.ReferenceIdeal
import Idealize.ShloMosaic.Lib.ValueIdx
set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Facts₀
variable {F : FTy → Type} [FloatOps F]

/-- The outlined leaky_relu on a value and its slope scalar. -/
def lreluT (v : FVec F S8192x32 .f32) (slope : FVec F S_ .f32) : FVec F S8192x32 .f32 :=
  select (cmpf .oge v (broadcastInDim S8192x32 ![] bcast_S_S8192x32 (constant S_ .f32 0x00000000#32))) v
    (mulf (broadcastInDim S8192x32 ![] bcast_S_S8192x32 (id slope)) v)

/-- One layer: lrelu(adj · s + b), the bias widened to a row and then to every row. -/
def layerT (adj : FVec F S8192x8192 .f32) (s : FVec F S8192x32 .f32) (b : FVec F S32 .f32) : FVec F S8192x32 .f32 :=
  lreluT (addf (Host.dotGeneral dot_S8192x8192_S8192x32_S8192x32_1_0_0_1_n_n none adj s)
      (broadcastInDim S8192x32 ![0, 1] bcast_S1x32_S8192x32_0_1 (broadcastInDim S1x32 ![1] bcast_S32_S1x32_1 b)))
    (constant S_ .f32 0x3C23D70A#32)

/-- The reference's result. -/
def refTerm (x : FVec F S8192x128 .f32) (adj : FVec F S8192x8192 .f32) (W1 : FVec F S128x32 .f32) (b1 : FVec F S32 .f32)
    (W2 : FVec F S32x32 .f32) (b2 : FVec F S32 .f32) : FVec F S8192x32 .f32 :=
  layerT adj (Host.dotGeneral dot_S8192x32_S32x32_S8192x32_1_0_0_1_n_n none
    (layerT adj (Host.dotGeneral dot_S8192x128_S128x32_S8192x32_1_0_0_1_n_n none x W1) b1) W2) b2

end Cert.ReferenceIdeal.RefValue
end
-- ==== Proof.RefRun.lean ====
/-
  The reference's run: every weakly fair execution of its @main terminates with the result buffer at `refTerm` of the
  arguments and the arguments unchanged.
-/
import proofs.«131990_g28389733826938_cont_9to1_253_4_alg».proof.Proof.RefTerm
import Idealize.ShloMosaic.Lib.StableHlo.Run
set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Facts₀ Idealize.ShloMosaic.StableHlo
variable {F : FTy → Type} [FloatOps F]

/-- The reference's operations in program order, each call of the outlined leaky_relu replaced by the seven operations
    of its body (the zero scalar, its widening, the comparison with zero, the slope's conversion, its widening, the
    product with the slope, and the select of the outlined where) over that call's own buffers. -/
abbrev ops : List (HloOp τ sig (Elt F)) :=
  [ binary main_arg0 main_arg2 main_v0 ((fun l r => Host.dotGeneral dot_S8192x128_S128x32_S8192x32_1_0_0_1_n_n none l r) : (⟨S8192x128, .f32⟩ : BufTy).Contents (Elt F) → (⟨S128x32, .f32⟩ : BufTy).Contents (Elt F) → (⟨S8192x32, .f32⟩ : BufTy).Contents (Elt F)),
    binary main_arg1 main_v0 main_v1 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    unary main_arg3 main_v2 (broadcastInDim S1x32 ![1] bcast_S32_S1x32_1 : (⟨S32, .f32⟩ : BufTy).Contents (Elt F) → (⟨S1x32, .f32⟩ : BufTy).Contents (Elt F)),
    unary main_v2 main_v3 (broadcastInDim S8192x32 ![0, 1] bcast_S1x32_S8192x32_0_1 : (⟨S1x32, .f32⟩ : BufTy).Contents (Elt F) → (⟨S8192x32, .f32⟩ : BufTy).Contents (Elt F)),
    binary main_v1 main_v3 main_v4 (addf : (⟨S8192x32, .f32⟩ : BufTy).Contents (Elt F) → (⟨S8192x32, .f32⟩ : BufTy).Contents (Elt F) → (⟨S8192x32, .f32⟩ : BufTy).Contents (Elt F)),
    nullary main_cst (constant S_ .f32 0x3C23D70A#32),
    TRef.nullary main_call0.cst (constant S_ .f32 0x00000000#32),
    TRef.unary main_call0.cst main_call0.v0 (broadcastInDim S8192x32 ![] bcast_S_S8192x32),
    TRef.binary (.of main_v4) main_call0.v0 main_call0.v1 (cmpf .oge),
    TRef.unary (.of main_cst) main_call0.v2 id,
    TRef.unary main_call0.v2 main_call0.v3 (broadcastInDim S8192x32 ![] bcast_S_S8192x32),
    TRef.binary main_call0.v3 (.of main_v4) main_call0.v4 mulf,
    TRef.ternary main_call0.v1 (.of main_v4) main_call0.v4 main_call0.call0.v0 select,
    binary main_v5 main_arg4 main_v6 ((fun l r => Host.dotGeneral dot_S8192x32_S32x32_S8192x32_1_0_0_1_n_n none l r) : (⟨S8192x32, .f32⟩ : BufTy).Contents (Elt F) → (⟨S32x32, .f32⟩ : BufTy).Contents (Elt F) → (⟨S8192x32, .f32⟩ : BufTy).Contents (Elt F)),
    binary main_arg1 main_v6 main_v7 ((fun l r => Host.dotGeneral dot_S8192x8192_S8192x32_S8192x32_1_0_0_1_n_n none l r) : (⟨S8192x8192, .f32⟩ : BufTy).Contents (Elt F) → (⟨S8192x32, .f32⟩ : BufTy).Contents (Elt F) → (⟨S8192x32, .f32⟩ : BufTy).Contents (Elt F)),
    unary main_arg5 main_v8 (broadcastInDim S1x32 ![1] bcast_S32_S1x32_1 : (⟨S32, .f32⟩ : BufTy).Contents (Elt F) → (⟨S1x32, .f32⟩ : BufTy).Contents (Elt F)),
    unary main_v8 main_v9 (broadcastInDim S8192x32 ![0, 1] bcast_S1x32_S8192x32_0_1 : (⟨S1x32, .f32⟩ : BufTy).Contents (Elt F) → (⟨S8192x32, .f32⟩ : BufTy).Contents (Elt F)),
    binary main_v7 main_v9 main_v10 (addf : (⟨S8192x32, .f32⟩ : BufTy).Contents (Elt F) → (⟨S8192x32, .f32⟩ : BufTy).Contents (Elt F) → (⟨S8192x32, .f32⟩ : BufTy).Contents (Elt F)),
    nullary main_cst_0 (constant S_ .f32 0x3C23D70A#32),
    TRef.nullary main_call1.cst (constant S_ .f32 0x00000000#32),
    TRef.unary main_call1.cst main_call1.v0 (broadcastInDim S8192x32 ![] bcast_S_S8192x32),
    TRef.binary (.of main_v10) main_call1.v0 main_call1.v1 (cmpf .oge),
    TRef.unary (.of main_cst_0) main_call1.v2 id,
    TRef.unary main_call1.v2 main_call1.v3 (broadcastInDim S8192x32 ![] bcast_S_S8192x32),
    TRef.binary main_call1.v3 (.of main_v10) main_call1.v4 mulf,
    TRef.ternary main_call1.v1 (.of main_v10) main_call1.v4 main_call1.call0.v0 select ]

set_option maxRecDepth 1024 in
/-- The program is that straight line: the two outlined functions unfolded at their calls and sequencing
    reassociated, both sides are one chain of twenty-six steps. -/
theorem main_eq (c : Dev nD) : main (F := F) c = seq ops := by
  simp only [main, fn_leaky_relu.body, fn_where.body, seq, bind_assoc, pure_bind]

/-- The signature scopes no buffer and no semaphore. -/
theorem scopedRefs_eq : (Finset.univ.filter fun b : Ref sig .tc => b.isScoped) = ∅ := by decide
theorem scopedSems_eq : (Finset.univ.filter fun sm : SemLoc sig => sm.isScoped .tc) = ∅ := by decide

/-- Every operation touches buffers of the core's own tables only. -/
theorem ops_sub : (ops : List (HloOp τ sig (Elt F))).Forall fun op => op.bufs ⊆ tcRefs τ sig :=
  ⟨binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..,
    binary_bufs_sub .., binary_bufs_sub .., unary_bufs_sub .., unary_bufs_sub .., binary_bufs_sub .., nullary_bufs_sub ..,
    nullary_bufs_sub .., unary_bufs_sub .., binary_bufs_sub .., unary_bufs_sub .., unary_bufs_sub .., binary_bufs_sub ..,
    ternary_bufs_sub ..⟩

/-- The fold of the twenty-six operations at the result buffer is the composed term of the six arguments: each
    operation's result decides whether the buffer read is the one it writes, and at these literal buffers the typed
    references' transports are the identity. -/
theorem result_eq (V : Valuation τ sig (Elt F)) :
    after ops V (main_v11 : DevRef τ sig)
      = refTerm (V (main_arg0 : DevRef τ sig)) (V (main_arg1 : DevRef τ sig)) (V (main_arg2 : DevRef τ sig))
          (V (main_arg3 : DevRef τ sig)) (V (main_arg4 : DevRef τ sig)) (V (main_arg5 : DevRef τ sig)) := by
  simp only [after_cons, after_nil]
  rfl

/-- No operation writes an argument's buffer. -/
theorem arg0_eq (V : Valuation τ sig (Elt F)) :
    after ops V (main_arg0 : DevRef τ sig) = V (main_arg0 : DevRef τ sig) := by
  simp only [after_cons, after_nil]
  rfl
theorem arg1_eq (V : Valuation τ sig (Elt F)) :
    after ops V (main_arg1 : DevRef τ sig) = V (main_arg1 : DevRef τ sig) := by
  simp only [after_cons, after_nil]
  rfl
theorem arg2_eq (V : Valuation τ sig (Elt F)) :
    after ops V (main_arg2 : DevRef τ sig) = V (main_arg2 : DevRef τ sig) := by
  simp only [after_cons, after_nil]
  rfl
theorem arg3_eq (V : Valuation τ sig (Elt F)) :
    after ops V (main_arg3 : DevRef τ sig) = V (main_arg3 : DevRef τ sig) := by
  simp only [after_cons, after_nil]
  rfl
theorem arg4_eq (V : Valuation τ sig (Elt F)) :
    after ops V (main_arg4 : DevRef τ sig) = V (main_arg4 : DevRef τ sig) := by
  simp only [after_cons, after_nil]
  rfl
theorem arg5_eq (V : Valuation τ sig (Elt F)) :
    after ops V (main_arg5 : DevRef τ sig) = V (main_arg5 : DevRef τ sig) := by
  simp only [after_cons, after_nil]
  rfl

theorem run (m : (ℓ : Loc nD τ sig) → Buf (Elt F) ℓ) (ρ : Dev nD → PrngReg) :
    θ_run (defs (F := F)) (onTc (τ := τ) (main (F := F))) ⟨m, fun _ => 0, ρ⟩ (fun r => ∀ c : Dev nD,
      r.2.mem ((c.tc : Thread nD τ).loc main_v11)
        = refTerm (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run (defs (F := F)) _ _).mono (fun _ h c => ⟨(h c main_v11).trans (result_eq _),
      (h c main_arg0).trans (arg0_eq _), (h c main_arg1).trans (arg1_eq _), (h c main_arg2).trans (arg2_eq _),
      (h c main_arg3).trans (arg3_eq _), (h c main_arg4).trans (arg4_eq _), (h c main_arg5).trans (arg5_eq _)⟩)
    (run_seq scopedRefs_eq scopedSems_eq defs main (fun _ => ops) main_eq (fun _ => ops_sub) m ρ)

end Cert.ReferenceIdeal.RefValue
end
-- ==== Proof.RefMath.lean ====
/-
  The reference's term is the specification: at the ideal instance each host product is the plain sum over its one
  contracted axis, the bias broadcasts read b(j) at every row, and the outlined leaky_relu is `Gcn.lrelu` entry by entry.
-/
import proofs.«131990_g28389733826938_cont_9to1_253_4_alg».proof.Proof.RefTerm
import proofs.«131990_g28389733826938_cont_9to1_253_4_alg».proof.Proof.Spec
import Idealize.ShloMosaic.PureOps.Ideal.Laws
import Idealize.ShloMosaic.Lib.KernelVsHost
set_option maxRecDepth 16384

noncomputable section

open scoped BigOperators

namespace Cert.ReferenceIdeal.RefValue

open Idealize.ShloMosaic Idealize.ShloMosaic.TcCoe Idealize.SL.Sem Idealize.ShloMosaic.ValueIdx
open Cert.ReferenceIdeal Cert.ReferenceIdeal.Facts₀

/-! ### The features times the first weights: [8192, 128] · [128, 32] -/

/-- On the left operand's kept axis the operand index is the result's row. -/
theorem dotXW_lhs0 (j : S8192x32.Idx) (k : dot_S8192x128_S128x32_S8192x32_1_0_0_1_n_n.contr.Idx) :
    (dot_S8192x128_S128x32_S8192x32_1_0_0_1_n_n.lhsIdx j k 0).val = (j 0).val := by
  simp [DotDims.lhsIdx, dot_S8192x128_S128x32_S8192x32_1_0_0_1_n_n]; rfl

/-- On the left operand's contracted axis the operand index is the contraction position. -/
theorem dotXW_lhs1 (j : S8192x32.Idx) (k : dot_S8192x128_S128x32_S8192x32_1_0_0_1_n_n.contr.Idx) :
    (dot_S8192x128_S128x32_S8192x32_1_0_0_1_n_n.lhsIdx j k 1).val = (k ⟨0, by decide⟩).val :=
  DotDims.lhsIdx_val_of_single _ rfl j k

/-- On the right operand's contracted axis the operand index is the contraction position. -/
theorem dotXW_rhs0 (j : S8192x32.Idx) (k : dot_S8192x128_S128x32_S8192x32_1_0_0_1_n_n.contr.Idx) :
    (dot_S8192x128_S128x32_S8192x32_1_0_0_1_n_n.rhsIdx j k 0).val = (k ⟨0, by decide⟩).val :=
  DotDims.rhsIdx_val_of_single _ rfl j k

/-- On the right operand's kept axis the operand index is the result's column. -/
theorem dotXW_rhs1 (j : S8192x32.Idx) (k : dot_S8192x128_S128x32_S8192x32_1_0_0_1_n_n.contr.Idx) :
    (dot_S8192x128_S128x32_S8192x32_1_0_0_1_n_n.rhsIdx j k 1).val = (j 1).val := by
  simp [DotDims.rhsIdx, dot_S8192x128_S128x32_S8192x32_1_0_0_1_n_n]; rfl

/-- The product read at (a, b) is the sum over the 128 contraction positions q of l(a, q) · r(q, b): the sum over the
    one-axis contraction index set, re-indexed by its coordinate. -/
theorem dotXW_apply (l : FVec Ideal S8192x128 .f32) (r : FVec Ideal S128x32 .f32) (a : Fin 8192) (b : Fin 32) :
    Host.dotGeneral dot_S8192x128_S128x32_S8192x32_1_0_0_1_n_n none l r (ix2 a b) = ∑ q : Fin 128, l (ix2 a q) * r (ix2 q b) := by
  simp only [Host.dotGeneral]
  refine (Ideal.dotGeneral_apply _ _ _ l r (ix2 a b)).trans ?_
  rw [← Equiv.sum_comp (contrEquiv1 dot_S8192x128_S128x32_S8192x32_1_0_0_1_n_n 128 rfl rfl).symm]
  refine Finset.sum_congr rfl fun q _ => ?_
  have hl : dot_S8192x128_S128x32_S8192x32_1_0_0_1_n_n.lhsIdx (ix2 a b) ((contrEquiv1 dot_S8192x128_S128x32_S8192x32_1_0_0_1_n_n 128 rfl rfl).symm q) = ix2 a q := by
    funext d
    match d with
    | ⟨0, _⟩ => exact Fin.ext (dotXW_lhs0 _ _)
    | ⟨1, _⟩ => exact Fin.ext ((dotXW_lhs1 _ _).trans (contrEquiv1_symm_val _ 128 rfl rfl q))
  have hr : dot_S8192x128_S128x32_S8192x32_1_0_0_1_n_n.rhsIdx (ix2 a b) ((contrEquiv1 dot_S8192x128_S128x32_S8192x32_1_0_0_1_n_n 128 rfl rfl).symm q) = ix2 q b := by
    funext d
    match d with
    | ⟨0, _⟩ => exact Fin.ext ((dotXW_rhs0 _ _).trans (contrEquiv1_symm_val _ 128 rfl rfl q))
    | ⟨1, _⟩ => exact Fin.ext (dotXW_rhs1 _ _)
  rw [hl, hr]

/-! ### The adjacency times a support matrix: [8192, 8192] · [8192, 32] -/

/-- On the left operand's kept axis the operand index is the result's row. -/
theorem dotAdj_lhs0 (j : S8192x32.Idx) (k : dot_S8192x8192_S8192x32_S8192x32_1_0_0_1_n_n.contr.Idx) :
    (dot_S8192x8192_S8192x32_S8192x32_1_0_0_1_n_n.lhsIdx j k 0).val = (j 0).val := by
  simp [DotDims.lhsIdx, dot_S8192x8192_S8192x32_S8192x32_1_0_0_1_n_n]; rfl

/-- On the left operand's contracted axis the operand index is the contraction position. -/
theorem dotAdj_lhs1 (j : S8192x32.Idx) (k : dot_S8192x8192_S8192x32_S8192x32_1_0_0_1_n_n.contr.Idx) :
    (dot_S8192x8192_S8192x32_S8192x32_1_0_0_1_n_n.lhsIdx j k 1).val = (k ⟨0, by decide⟩).val :=
  DotDims.lhsIdx_val_of_single _ rfl j k

/-- On the right operand's contracted axis the operand index is the contraction position. -/
theorem dotAdj_rhs0 (j : S8192x32.Idx) (k : dot_S8192x8192_S8192x32_S8192x32_1_0_0_1_n_n.contr.Idx) :
    (dot_S8192x8192_S8192x32_S8192x32_1_0_0_1_n_n.rhsIdx j k 0).val = (k ⟨0, by decide⟩).val :=
  DotDims.rhsIdx_val_of_single _ rfl j k

/-- On the right operand's kept axis the operand index is the result's column. -/
theorem dotAdj_rhs1 (j : S8192x32.Idx) (k : dot_S8192x8192_S8192x32_S8192x32_1_0_0_1_n_n.contr.Idx) :
    (dot_S8192x8192_S8192x32_S8192x32_1_0_0_1_n_n.rhsIdx j k 1).val = (j 1).val := by
  simp [DotDims.rhsIdx, dot_S8192x8192_S8192x32_S8192x32_1_0_0_1_n_n]; rfl

/-- The product read at (a, b) is the sum over the 8192 contraction positions q of l(a, q) · r(q, b): the sum over the
    one-axis contraction index set, re-indexed by its coordinate. -/
theorem dotAdj_apply (l : FVec Ideal S8192x8192 .f32) (r : FVec Ideal S8192x32 .f32) (a : Fin 8192) (b : Fin 32) :
    Host.dotGeneral dot_S8192x8192_S8192x32_S8192x32_1_0_0_1_n_n none l r (ix2 a b) = ∑ q : Fin 8192, l (ix2 a q) * r (ix2 q b) := by
  simp only [Host.dotGeneral]
  refine (Ideal.dotGeneral_apply _ _ _ l r (ix2 a b)).trans ?_
  rw [← Equiv.sum_comp (contrEquiv1 dot_S8192x8192_S8192x32_S8192x32_1_0_0_1_n_n 8192 rfl rfl).symm]
  refine Finset.sum_congr rfl fun q _ => ?_
  have hl : dot_S8192x8192_S8192x32_S8192x32_1_0_0_1_n_n.lhsIdx (ix2 a b) ((contrEquiv1 dot_S8192x8192_S8192x32_S8192x32_1_0_0_1_n_n 8192 rfl rfl).symm q) = ix2 a q := by
    funext d
    match d with
    | ⟨0, _⟩ => exact Fin.ext (dotAdj_lhs0 _ _)
    | ⟨1, _⟩ => exact Fin.ext ((dotAdj_lhs1 _ _).trans (contrEquiv1_symm_val _ 8192 rfl rfl q))
  have hr : dot_S8192x8192_S8192x32_S8192x32_1_0_0_1_n_n.rhsIdx (ix2 a b) ((contrEquiv1 dot_S8192x8192_S8192x32_S8192x32_1_0_0_1_n_n 8192 rfl rfl).symm q) = ix2 q b := by
    funext d
    match d with
    | ⟨0, _⟩ => exact Fin.ext ((dotAdj_rhs0 _ _).trans (contrEquiv1_symm_val _ 8192 rfl rfl q))
    | ⟨1, _⟩ => exact Fin.ext (dotAdj_rhs1 _ _)
  rw [hl, hr]

/-! ### The hidden layer times the second weights: [8192, 32] · [32, 32] -/

/-- On the left operand's kept axis the operand index is the result's row. -/
theorem dotHW_lhs0 (j : S8192x32.Idx) (k : dot_S8192x32_S32x32_S8192x32_1_0_0_1_n_n.contr.Idx) :
    (dot_S8192x32_S32x32_S8192x32_1_0_0_1_n_n.lhsIdx j k 0).val = (j 0).val := by
  simp [DotDims.lhsIdx, dot_S8192x32_S32x32_S8192x32_1_0_0_1_n_n]; rfl

/-- On the left operand's contracted axis the operand index is the contraction position. -/
theorem dotHW_lhs1 (j : S8192x32.Idx) (k : dot_S8192x32_S32x32_S8192x32_1_0_0_1_n_n.contr.Idx) :
    (dot_S8192x32_S32x32_S8192x32_1_0_0_1_n_n.lhsIdx j k 1).val = (k ⟨0, by decide⟩).val :=
  DotDims.lhsIdx_val_of_single _ rfl j k

/-- On the right operand's contracted axis the operand index is the contraction position. -/
theorem dotHW_rhs0 (j : S8192x32.Idx) (k : dot_S8192x32_S32x32_S8192x32_1_0_0_1_n_n.contr.Idx) :
    (dot_S8192x32_S32x32_S8192x32_1_0_0_1_n_n.rhsIdx j k 0).val = (k ⟨0, by decide⟩).val :=
  DotDims.rhsIdx_val_of_single _ rfl j k

/-- On the right operand's kept axis the operand index is the result's column. -/
theorem dotHW_rhs1 (j : S8192x32.Idx) (k : dot_S8192x32_S32x32_S8192x32_1_0_0_1_n_n.contr.Idx) :
    (dot_S8192x32_S32x32_S8192x32_1_0_0_1_n_n.rhsIdx j k 1).val = (j 1).val := by
  simp [DotDims.rhsIdx, dot_S8192x32_S32x32_S8192x32_1_0_0_1_n_n]; rfl

/-- The product read at (a, b) is the sum over the 32 contraction positions q of l(a, q) · r(q, b): the sum over the
    one-axis contraction index set, re-indexed by its coordinate. -/
theorem dotHW_apply (l : FVec Ideal S8192x32 .f32) (r : FVec Ideal S32x32 .f32) (a : Fin 8192) (b : Fin 32) :
    Host.dotGeneral dot_S8192x32_S32x32_S8192x32_1_0_0_1_n_n none l r (ix2 a b) = ∑ q : Fin 32, l (ix2 a q) * r (ix2 q b) := by
  simp only [Host.dotGeneral]
  refine (Ideal.dotGeneral_apply _ _ _ l r (ix2 a b)).trans ?_
  rw [← Equiv.sum_comp (contrEquiv1 dot_S8192x32_S32x32_S8192x32_1_0_0_1_n_n 32 rfl rfl).symm]
  refine Finset.sum_congr rfl fun q _ => ?_
  have hl : dot_S8192x32_S32x32_S8192x32_1_0_0_1_n_n.lhsIdx (ix2 a b) ((contrEquiv1 dot_S8192x32_S32x32_S8192x32_1_0_0_1_n_n 32 rfl rfl).symm q) = ix2 a q := by
    funext d
    match d with
    | ⟨0, _⟩ => exact Fin.ext (dotHW_lhs0 _ _)
    | ⟨1, _⟩ => exact Fin.ext ((dotHW_lhs1 _ _).trans (contrEquiv1_symm_val _ 32 rfl rfl q))
  have hr : dot_S8192x32_S32x32_S8192x32_1_0_0_1_n_n.rhsIdx (ix2 a b) ((contrEquiv1 dot_S8192x32_S32x32_S8192x32_1_0_0_1_n_n 32 rfl rfl).symm q) = ix2 q b := by
    funext d
    match d with
    | ⟨0, _⟩ => exact Fin.ext ((dotHW_rhs0 _ _).trans (contrEquiv1_symm_val _ 32 rfl rfl q))
    | ⟨1, _⟩ => exact Fin.ext (dotHW_rhs1 _ _)
  rw [hl, hr]

/-! ### The rectification, the bias, one layer -/

/-- The outlined leaky_relu with the slope constant, entry by entry: both scalars broadcast read the scalar at every
    index, so the entry is select(v ≥ 0, v, slope · v). -/
theorem lreluT_apply (v : FVec Ideal S8192x32 .f32) (i : S8192x32.Idx) :
    lreluT (F := Ideal) v (constant S_ .f32 0x3C23D70A#32) i = Cert.Gcn.lrelu (v i) := rfl

/-- The bias widened to one row and the row copied down the 8192 rows reads b(j) at (r, j). -/
theorem bias_apply (b : FVec Ideal S32 .f32) (r : Fin 8192) (j : Fin 32) :
    broadcastInDim S8192x32 ![0, 1] bcast_S1x32_S8192x32_0_1 (broadcastInDim S1x32 ![1] bcast_S32_S1x32_1 b) (ix2 r j)
      = b (ix1 j) := by
  refine (broadcastInDim_oneRow_apply bcast_S1x32_S8192x32_0_1 _ r j).trans ?_
  refine broadcastInDim_apply ![1] bcast_S32_S1x32_1 b (ix2 (0 : Fin 1) j) (ix1 j) ?_
  intro a
  match a with
  | ⟨0, _⟩ => rfl

/-- One layer of the reference is the specification's layer: lrelu(Σ_q adj(r, q) · s(q, j) + b(j)) at every (r, j). -/
theorem layerT_eq_layer (adj : FVec Ideal S8192x8192 .f32) (s : FVec Ideal S8192x32 .f32) (b : FVec Ideal S32 .f32) :
    layerT (F := Ideal) adj s b = Cert.Gcn.layer adj s b := by
  funext i
  obtain ⟨r, j, rfl⟩ : ∃ (r : Fin 8192) (j : Fin 32), i = ix2 r j := ⟨i 0, i 1, eq_ix2 i⟩
  rw [Cert.Gcn.layer_apply]
  unfold layerT Cert.Gcn.layerAt Cert.Gcn.mmAt
  rw [lreluT_apply, addf_apply, dotAdj_apply, bias_apply]

/-- The first support matrix is the specification's product x · W1. -/
theorem dotXW_eq_mm (x : FVec Ideal S8192x128 .f32) (W : FVec Ideal S128x32 .f32) :
    Host.dotGeneral dot_S8192x128_S128x32_S8192x32_1_0_0_1_n_n none x W = Cert.Gcn.mm x W := by
  funext i
  obtain ⟨r, j, rfl⟩ : ∃ (r : Fin 8192) (j : Fin 32), i = ix2 r j := ⟨i 0, i 1, eq_ix2 i⟩
  rw [Cert.Gcn.mm_apply, dotXW_apply]; rfl

/-- The second support matrix is the specification's product h · W2. -/
theorem dotHW_eq_mm (h : FVec Ideal S8192x32 .f32) (W : FVec Ideal S32x32 .f32) :
    Host.dotGeneral dot_S8192x32_S32x32_S8192x32_1_0_0_1_n_n none h W = Cert.Gcn.mm h W := by
  funext i
  obtain ⟨r, j, rfl⟩ : ∃ (r : Fin 8192) (j : Fin 32), i = ix2 r j := ⟨i 0, i 1, eq_ix2 i⟩
  rw [Cert.Gcn.mm_apply, dotHW_apply]; rfl

/-- The reference's term is the specification: both support products and both layers, rewritten in turn. -/
theorem refTerm_eq_out (x : FVec Ideal S8192x128 .f32) (adj : FVec Ideal S8192x8192 .f32) (W1 : FVec Ideal S128x32 .f32) (b1 : FVec Ideal S32 .f32)
    (W2 : FVec Ideal S32x32 .f32) (b2 : FVec Ideal S32 .f32) :
    refTerm (F := Ideal) x adj W1 b1 W2 b2 = Cert.Gcn.out x adj W1 b1 W2 b2 := by
  unfold refTerm Cert.Gcn.out Cert.Gcn.hidden
  rw [dotXW_eq_mm, layerT_eq_layer, dotHW_eq_mm, layerT_eq_layer]

end Cert.ReferenceIdeal.RefValue
end
-- ==== Proof.lean ====
/-
  A two-layer dense graph convolution, out = lrelu(adj · (lrelu(adj · (x · W1) + b1) · W2) + b2), as ONE pipelined kernel on
  a grid of 2 × 16 points against the plain host computation.

  The kernel's outer grid axis is the layer, the inner one walks the adjacency in blocks of 512 rows. Two scratch arrays
  live across the points: the layer's support matrix (x · W1, then hidden · W2) and the hidden layer, collected one block
  per point of layer 0 and read whole at the first point of layer 1. The result window parks on block 0 through layer 0,
  where the body stores nothing into it and nothing is written back; each point of layer 1 stores and writes back its block.

  Frames. The body's four kinds of point are run whole (Proof/StepFirst, StepHidden, StepSwitch, StepOut); between points the
  scratch arrays are held at contents RELATED to the arguments (Proof/CarriedState: after n points the support matrix is
  the layer's and the rows of the hidden array stored so far are the hidden layer's), a relation each kind of point keeps
  (Proof/CarriedStep, Proof/PointBody); the launch is the library's frame run with a tracking invariant (Proof/RegionRun).
  Nothing in this depends on the float instance, so the word-level program's frame is the same text at its own namespace
  (Proof/Bits). The reference has no kernel: its frame is its run with the result dropped (Proof/RefRun).

  Values, at the ideal instance. Format changes are the identity, a matrix-unit product into the zero accumulator and the
  host's dot_general are the same plain sum over the contracted axis, so every payload is the specification's entry
  (Proof/PayloadValue), the blocks written back by layer 1 are the rows of `Gcn.out` and tile the result array
  (Proof/Blocks, Proof/KernelValue, Proof/ResultRun), and the reference's composed term is `Gcn.out` as well
  (Proof/RefTerm, Proof/RefMath). No law beyond reindexing the sums is used, so the precondition is never opened.
  The ideal pass rewrote nothing: `preserves` is `True`.
-/
import proofs.«131990_g28389733826938_cont_9to1_253_4_alg».proof.Defs
import proofs.«131990_g28389733826938_cont_9to1_253_4_alg».proof.Proof.Gen.Kernel
import proofs.«131990_g28389733826938_cont_9to1_253_4_alg».proof.Proof.Gen.Kernel.Skeleton
import proofs.«131990_g28389733826938_cont_9to1_253_4_alg».proof.Proof.Gen.Kernel.Launch
import proofs.«131990_g28389733826938_cont_9to1_253_4_alg».proof.Proof.Gen.Kernel.Points
import proofs.«131990_g28389733826938_cont_9to1_253_4_alg».proof.Proof.Gen.Kernel.Frame
import proofs.«131990_g28389733826938_cont_9to1_253_4_alg».proof.Proof.Gen.KernelIdeal
import proofs.«131990_g28389733826938_cont_9to1_253_4_alg».proof.Proof.Gen.KernelIdeal.Skeleton
import proofs.«131990_g28389733826938_cont_9to1_253_4_alg».proof.Proof.Gen.KernelIdeal.Launch
import proofs.«131990_g28389733826938_cont_9to1_253_4_alg».proof.Proof.Gen.KernelIdeal.Points
import proofs.«131990_g28389733826938_cont_9to1_253_4_alg».proof.Proof.Gen.KernelIdeal.Frame
import proofs.«131990_g28389733826938_cont_9to1_253_4_alg».proof.Proof.Gen.ReferenceIdeal
import proofs.«131990_g28389733826938_cont_9to1_253_4_alg».proof.Proof.Gen.Pre_finite_inputs
import proofs.«131990_g28389733826938_cont_9to1_253_4_alg».proof.Proof.Bits.RegionRun
import proofs.«131990_g28389733826938_cont_9to1_253_4_alg».proof.Proof.ResultRun
import proofs.«131990_g28389733826938_cont_9to1_253_4_alg».proof.Proof.RefRun
import proofs.«131990_g28389733826938_cont_9to1_253_4_alg».proof.Proof.RefMath
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

theorem frame_ri : Cert.frame_ReferenceIdeal := fun m ρ _ =>
  (θ_run Cert.ReferenceIdeal.defs _ _).mono (fun _ h c => (h c).2) (Cert.ReferenceIdeal.RefValue.run (F := Ideal) m ρ)

theorem preserves : Cert.preserves_Kernel_KernelIdeal := trivial

/-- Both programs end with the result at `Gcn.out` of their argument arrays, which agree. -/
theorem algebraic : Cert.algebraic_KernelIdeal_ReferenceIdeal := by
  intro m ρ m' ρ' _ hagree
  refine ⟨fun c => Cert.Gcn.out (Cert.KernelIdeal.KValue.X m c) (Cert.KernelIdeal.KValue.ADJ m c) (Cert.KernelIdeal.KValue.W1 m c)
    (Cert.KernelIdeal.KValue.B1 m c) (Cert.KernelIdeal.KValue.W2 m c) (Cert.KernelIdeal.KValue.B2 m c),
    Cert.KernelIdeal.KValue.run_value m ρ, ?_⟩
  refine (θ_run Cert.ReferenceIdeal.defs _ _).mono (fun _ h c => ⟨(h c).1.trans ?_, (h c).2⟩)
    (Cert.ReferenceIdeal.RefValue.run (F := Ideal) m' ρ')
  rw [Cert.ReferenceIdeal.RefValue.refTerm_eq_out, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
